-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x1024 : Shape := ⟨2, ![64, 1024]⟩
abbrev S64x256x2 : Shape := ⟨3, ![64, 256, 2]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S64x256x2 : S_.BroadcastsInDim S64x256x2 (![] : Fin 0 → Fin S64x256x2.rank)
  reducesTo_S64x256x2_S_d0_1_2 : S64x256x2.ReducesTo [0, 1, 2] S_

variable [Facts]

def fn_part2 {F : FTy → Type} [FloatOps F] (main_v28 : IVec S_ 1) (main_v33 : IVec S64x256x2 1) : IVec S_ 1 :=
  let main_c_12 : IVec S_ 1 := constantI S_ 1 1#1
  let main_v34 : IVec S_ 1 := (fun x v => Host.reduce IntOp.andi x v reducesTo_S64x256x2_S_d0_1_2 h_S_) main_v33 main_c_12
  let main_v35 : IVec S_ 1 := andi main_v28 main_v34
  main_v35

def fn_part1 {F : FTy → Type} [FloatOps F] (main_arg2 : IVec S64x256x2 32) (main_arg5 : FVec F S1024x512 .f32) (main_arg6 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S64x256x2 32 := broadcastInDim S64x256x2 ![] bcast_S_S64x256x2 main_c_10
  let main_v30 : IVec S64x256x2 1 := cmpi .sge main_arg2 main_v29
  let main_c_11 : IVec S_ 32 := constantI S_ 32 32#32
  let main_v31 : IVec S64x256x2 32 := broadcastInDim S64x256x2 ![] bcast_S_S64x256x2 main_c_11
  let main_v32 : IVec S64x256x2 1 := cmpi .slt main_arg2 main_v31
  let main_v33 : IVec S64x256x2 1 := andi main_v30 main_v32
  fn_part2 (F := F) main_v28 main_v33

def fn {F : FTy → Type} [FloatOps F] (main_arg0 : FVec F S2048x1024 .f32) (main_arg1 : FVec F S64x1024 .f32) (main_arg2 : IVec S64x256x2 32) (main_arg3 : FVec F S2048x1024 .f32) (main_arg4 : FVec F S1024 .f32) (main_arg5 : FVec F S1024x512 .f32) (main_arg6 : FVec F S512 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_v13 main_v16
-- ==== Kernel.lean ====
abbrev S2048x1024 : Shape := ⟨2, ![2048, 1024]⟩
abbrev S64x1024 : Shape := ⟨2, ![64, 1024]⟩
abbrev S64x256x2 : Shape := ⟨3, ![64, 256, 2]⟩
abbrev S1024 : Shape := ⟨1, ![1024]⟩
abbrev S1024x512 : Shape := ⟨2, ![1024, 512]⟩
abbrev S512 : Shape := ⟨1, ![512]⟩
abbrev S_ : Shape := ⟨0, ![]⟩
abbrev S1024x1024 : Shape := ⟨2, ![1024, 1024]⟩
abbrev S512x1024 : Shape := ⟨2, ![512, 1024]⟩
abbrev S1x1024 : Shape := ⟨2, ![1, 1024]⟩
abbrev S64x1x1024 : Shape := ⟨3, ![64, 1, 1024]⟩
abbrev S64x256x512 : Shape := ⟨3, ![64, 256, 512]⟩
abbrev S128x1024 : Shape := ⟨2, ![128, 1024]⟩
abbrev S4x1x1024 : Shape := ⟨3, ![4, 1, 1024]⟩
abbrev S4x256x2 : Shape := ⟨3, ![4, 256, 2]⟩
abbrev S4x256x512 : Shape := ⟨3, ![4, 256, 512]⟩
abbrev S4x256x1 : Shape := ⟨3, ![4, 256, 1]⟩
abbrev S1024x1 : Shape := ⟨2, ![1024, 1]⟩
abbrev S1x128 : Shape := ⟨2, ![1, 128]⟩
abbrev S1024x128 : Shape := ⟨2, ![1024, 128]⟩
abbrev S4x1024 : Shape := ⟨2, ![4, 1024]⟩
abbrev S4x256x1024 : Shape := ⟨3, ![4, 256, 1024]⟩
abbrev S1x512 : Shape := ⟨2, ![1, 512]⟩
abbrev S16384x512 : Shape := ⟨2, ![16384, 512]⟩

abbrev nBuf : Space → Nat
  | .hbm => 28
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S64x256x2, .i32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64x256x2, .i32⟩
  | .hbm, ⟨11, _⟩ => ⟨S64x256x2, .i32⟩
  | .hbm, ⟨12, _⟩ => ⟨S_, .i32⟩
  | .hbm, ⟨13, _⟩ => ⟨S64x256x2, .i32⟩
  | .hbm, ⟨14, _⟩ => ⟨S64x256x2, .i32⟩
  | .hbm, ⟨15, _⟩ => ⟨S1024x1024, .f32⟩
  | .hbm, ⟨16, _⟩ => ⟨S1024x1024, .f32⟩
  | .hbm, ⟨17, _⟩ => ⟨S2048x1024, .bf16⟩
  | .hbm, ⟨18, _⟩ => ⟨S64x1024, .bf16⟩
  | .hbm, ⟨19, _⟩ => ⟨S1024x1024, .bf16⟩
  | .hbm, ⟨20, _⟩ => ⟨S64x1024, .f32⟩
  | .hbm, ⟨21, _⟩ => ⟨S1x1024, .f32⟩
  | .hbm, ⟨22, _⟩ => ⟨S64x1024, .f32⟩
  | .hbm, ⟨23, _⟩ => ⟨S64x1024, .f32⟩
  | .hbm, ⟨24, _⟩ => ⟨S1024x512, .bf16⟩
  | .hbm, ⟨25, _⟩ => ⟨S64x1x1024, .f32⟩
  | .hbm, ⟨26, _⟩ => ⟨S64x256x512, .f32⟩
  | .hbm, ⟨27, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | .local _ .vmem, ⟨5, _⟩ => ⟨S128x1024, .bf16⟩
  | .local _ .vmem, ⟨6, _⟩ => ⟨S128x1024, .bf16⟩
  | .local _ .vmem, ⟨7, _⟩ => ⟨S4x1x1024, .f32⟩
  | .local _ .vmem, ⟨8, _⟩ => ⟨S4x1x1024, .f32⟩
  | .local _ .vmem, ⟨9, _⟩ => ⟨S4x256x2, .i32⟩
  | .local _ .vmem, ⟨10, _⟩ => ⟨S4x256x2, .i32⟩
  | .local _ .vmem, ⟨11, _⟩ => ⟨S1024x512, .bf16⟩
  | .local _ .vmem, ⟨12, _⟩ => ⟨S512, .f32⟩
  | .local _ .vmem, ⟨13, _⟩ => ⟨S4x256x512, .f32⟩
  | .local _ .vmem, ⟨14, _⟩ => ⟨S4x256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x256x2 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S64x256x2 : S_.BroadcastsInDim S64x256x2 (![] : Fin 0 → Fin S64x256x2.rank)
  slices_S2048x1024_S1024x1024_0_0 : S2048x1024.Slices ![0, 0] S1024x1024
  slices_S2048x1024_S1024x1024_1024_0 : S2048x1024.Slices ![1024, 0] S1024x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  shapeCasts_S64x1024_S64x1x1024 : S64x1024.ShapeCasts S64x1x1024
  inb_S4x256x2_S4x256x2_0_0_0 : ∀ a, (![0, 0, 0] : Fin 3 → Nat) a + S4x256x2.size a ≤ S4x256x2.size a
  h_S4x256x2 : 0 < S4x256x2.numel
  shapeCasts_S4x256x2_S4x256x2 : S4x256x2.ShapeCasts S4x256x2
  slices_S4x256x2_o0_0_0_S4x256x1 : S4x256x2.Slices ![0, 0, 0] S4x256x1
  slices_S4x256x2_o0_0_1_S4x256x1 : S4x256x2.Slices ![0, 0, 1] S4x256x1
  iota_S4x256x1_d0_w32 : S4x256x1.Iotas .tc 32 [0]
  shapeCasts_S4x256x1_S1024x1 : S4x256x1.ShapeCasts S1024x1
  iota_S1x128_d1_w32 : S1x128.Iotas .tc 32 [1]
  broadcasts_S1024x1_S1024x128 : S1024x1.Broadcasts S1024x128
  broadcasts_S1x128_S1024x128 : S1x128.Broadcasts S1024x128
  natLt_1_32 : 1 < 32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  shapeCasts_S4x1x1024_S4x1024 : S4x1x1024.ShapeCasts S4x1024
  shapeCasts_S4x1024_S4x1x1024 : S4x1024.ShapeCasts S4x1x1024
  broadcasts_S4x1x1024_S4x256x1024 : S4x1x1024.Broadcasts S4x256x1024
  shapeCasts_S4x256x1024_S1024x1024 : S4x256x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S4x256x512 : S1024x512.ShapeCasts S4x256x512
  inb_S4x256x512_S4x256x512_0_0_0 : ∀ a, (![0, 0, 0] : Fin 3 → Nat) a + S4x256x512.size a ≤ S4x256x512.size a
  h_S4x256x512 : 0 < S4x256x512.numel
  shapeCasts_S64x256x512_S16384x512 : S64x256x512.ShapeCasts S16384x512
  dot_S512x1024_S1024x1024_S512x1024_1_0_0_1_n_n_wf : DotDims.WF S512x1024 S1024x1024 S512x1024 [1] [0] [0] [1] [] []
  dot_S64x1024_S1024x1024_S64x1024_1_0_0_1_n_n_wf : DotDims.WF S64x1024 S1024x1024 S64x1024 [1] [0] [0] [1] [] []
  dot_S1024x128_S128x1024_S1024x1024_1_0_0_1_n_n_wf : DotDims.WF S1024x128 S128x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .bf16 = 32 ∨ (Rect.block (s := S2048x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S2048x1024.size a
  hwx1_0 : ∀ i : grid1.Coords, EltTy.bits .bf16 = 32 ∨ (Rect.block (s := S2048x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x1x1024.size a ≤ S64x1x1024.size a
  hwx1_1 : ∀ i : grid1.Coords, EltTy.bits .f32 = 32 ∨ (Rect.block (s := S64x1x1024) S4x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x2.size a ≤ S64x256x2.size a
  hwx1_2 : ∀ i : grid1.Coords, EltTy.bits .i32 = 32 ∨ (Rect.block (s := S64x256x2) S4x256x2.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x512.size a
  hwx1_3 : ∀ i : grid1.Coords, EltTy.bits .bf16 = 32 ∨ (Rect.block (s := S1024x512) S1024x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256x512.size a ≤ S64x256x512.size a
  hwx1_5 : ∀ i : grid1.Coords, EltTy.bits .f32 = 32 ∨ (Rect.block (s := S64x256x512) S4x256x512.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S4x256x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S4x256x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S64x1024 : Shape := ⟨2, ![64, 1024]⟩
abbrev S64x256x2 : Shape := ⟨3, ![64, 256, 2]⟩
abbrev S1024 : Shape := ⟨1, ![1024]⟩
abbrev S1024x512 : Shape := ⟨2, ![1024, 512]⟩
abbrev S512 : Shape := ⟨1, ![512]⟩
abbrev S64 : Shape := ⟨1, ![64]⟩
abbrev S_ : Shape := ⟨0, ![]⟩
abbrev S64x1x1 : Shape := ⟨3, ![64, 1, 1]⟩
abbrev S64x256x1 : Shape := ⟨3, ![64, 256, 1]⟩
abbrev S64x256 : Shape := ⟨2, ![64, 256]⟩
abbrev S64x256x1024 : Shape := ⟨3, ![64, 256, 1024]⟩
abbrev S64x1x1024 : Shape := ⟨3, ![64, 1, 1024]⟩
abbrev S64x256x2048 : Shape := ⟨3, ![64, 256, 2048]⟩
abbrev S16384x2048 : Shape := ⟨2, ![16384, 2048]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S64x256x2, .i32⟩
  | .hbm, ⟨3, _⟩ => ⟨S2048x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64x1x1, .i32⟩
  | .hbm, ⟨12, _⟩ => ⟨S64x256x2, .i32⟩
  | .hbm, ⟨13, _⟩ => ⟨S64x256x2, .i32⟩
  | .hbm, ⟨14, _⟩ => ⟨S64x256x1, .i32⟩
  | .hbm, ⟨15, _⟩ => ⟨S64x256, .i32⟩
  | .hbm, ⟨16, _⟩ => ⟨S_, .i32⟩
  | .hbm, ⟨17, _⟩ => ⟨S64x256, .i32⟩
  | .hbm, ⟨18, _⟩ => ⟨S64x256, .i1⟩
  | .hbm, ⟨19, _⟩ => ⟨S_, .i32⟩
  | .hbm, ⟨20, _⟩ => ⟨S64x256, .i32⟩
  | .hbm, ⟨21, _⟩ => ⟨S64x256, .i32⟩
  | .hbm, ⟨22, _⟩ => ⟨S64x256, .i32⟩
  | .hbm, ⟨23, _⟩ => ⟨S64x256x1, .i32⟩
  | .hbm, ⟨24, _⟩ => ⟨S64x256x1024, .f32⟩
  | .hbm, ⟨25, _⟩ => ⟨S64x256x1, .i32⟩
  | .hbm, ⟨26, _⟩ => ⟨S64x256, .i32⟩
  | .hbm, ⟨27, _⟩ => ⟨S_, .i32⟩
  | .hbm, ⟨28, _⟩ => ⟨S64x256, .i32⟩
  | .hbm, ⟨29, _⟩ => ⟨S64x256, .i1⟩
  | .hbm, ⟨30, _⟩ => ⟨S_, .i32⟩
  | .hbm, ⟨31, _⟩ => ⟨S64x256, .i32⟩
  | .hbm, ⟨32, _⟩ => ⟨S64x256, .i32⟩
  | .hbm, ⟨33, _⟩ => ⟨S64x256, .i32⟩
  | .hbm, ⟨34, _⟩ => ⟨S64x256x1, .i32⟩
  | .hbm, ⟨35, _⟩ => ⟨S64x256x1024, .f32⟩
  | .hbm, ⟨36, _⟩ => ⟨S64x256x1024, .f32⟩
  | .hbm, ⟨37, _⟩ => ⟨S_, .f32⟩
  | .hbm, ⟨38, _⟩ => ⟨S64x256x1024, .f32⟩
  | .hbm, ⟨39, _⟩ => ⟨S64x256x1024, .f32⟩
  | .hbm, ⟨40, _⟩ => ⟨S64x1x1024, .f32⟩
  | .hbm, ⟨41, _⟩ => ⟨S64x256x1024, .f32⟩
  | .hbm, ⟨42, _⟩ => ⟨S64x256x2048, .f32⟩
  | .hbm, ⟨43, _⟩ => ⟨S16384x2048, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x512, .f32⟩
  | .hbm, ⟨49, _⟩ => ⟨S1x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_cst : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x256x2_0_1_2 : S64x1x1.BroadcastsInDim S64x256x2 (![0, 1, 2] : Fin 3 → Fin S64x256x2.rank)
  slices_S64x256x2_S64x256x1_0_0_0 : S64x256x2.Slices ![0, 0, 0] S64x256x1
  shapeCasts_S64x256x1_S64x256 : S64x256x1.ShapeCasts S64x256
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  slices_S64x256x2_S64x256x1_0_0_1 : S64x256x2.Slices ![0, 0, 1] S64x256x1
  bcast_S_S64x256x1024 : S_.BroadcastsInDim S64x256x1024 (![] : Fin 0 → Fin S64x256x1024.rank)
  bcast_S64x1024_S64x1x1024_0_2 : S64x1024.BroadcastsInDim S64x1x1024 (![0, 2] : Fin 2 → Fin S64x1x1024.rank)
  bcast_S64x1x1024_S64x256x1024_0_1_2 : S64x1x1024.BroadcastsInDim S64x256x1024 (![0, 1, 2] : Fin 3 → Fin S64x256x1024.rank)
  concatenates_S64x256x1024_S64x256x1024_S64x256x2048_d2 : Shape.Concatenates [S64x256x1024, S64x256x1024] S64x256x2048 2
  shapeCasts_S64x256x2048_S16384x2048 : S64x256x2048.ShapeCasts S16384x2048
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  gather_S2048x1024_S64x256x1_S64x256x1024_2_0_n_n_0_2_11024_wf : GatherDims.WF S2048x1024 S64x256x1 S64x256x1024 [2] [0] [] [0] [] 2 ![1, 1024]
  dot_S16384x2048_S2048x1024_S16384x1024_1_0_0_1_n_n_wf : DotDims.WF S16384x2048 S2048x1024 S16384x1024 [1] [0] [0] [1] [] []
  dot_S16384x1024_S1024x512_S16384x512_1_0_0_1_n_n_wf : DotDims.WF S16384x1024 S1024x512 S16384x512 [1] [0] [0] [1] [] []

variable [Facts₀]

def gather_S2048x1024_S64x256x1_S64x256x1024_2_0_n_n_0_2_11024 : GatherDims S2048x1024 S64x256x1 S64x256x1024 where
  offsetDims := [2]
  collapsedSliceDims := [0]
  operandBatchingDims := []
  startIndicesBatchingDims := []
  startIndexMap := [0]
  indexVectorDim := 2
  sliceSizes := ![1, 1024]
  wf := gather_S2048x1024_S64x256x1_S64x256x1024_2_0_n_n_0_2_11024_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Spec.lean ====
/-
  The two computations as functions of the seven argument arrays, entry by entry, on the extended reals.

  Notation. O is the table of object rows (2048 rows of 1024 numbers: 64 clips of 32 objects each), C the 64 context rows,
  P the 64 x 256 x 2 array of pair indices (32-bit words), W1 the first weight matrix (2048 x 1024: its first 1024 rows meet
  the object half of an input row, its last 1024 rows the context half), b1 its bias, W2 (1024 x 512) and b2 the second layer.
  A relation row is numbered either by (b, r), clip b and relation r, or flat by 256 b + r.

  Both computations end the same way: from a hidden row H(b, r, ·) of 1024 numbers, the entry (256 b + r, j) of the result is
  max (sum over k of H(b, r, k) W2(k, j) + b2(j), 0). They differ in how the hidden row is formed.

  One side first multiplies every object row by the top half of W1 and every context row by the bottom half (plus b1), and then
  takes, for relation (b, r), half the sum of the two projected object rows its pair names among the 128 rows of the group of four
  clips that holds b — written as a sum over those 128 rows against a 0/1/2 selector times one half — plus the projected context
  row of b. Before that each pair index is clipped into 0..31.

  The other side forms the input row first — half the sum of the two object rows named by the pair index plus 32 b (a negative
  word is shifted by 2048, and the word is clamped into the table), followed by the context row of b — and multiplies the whole
  2048-long row by W1, adding b1.
-/
import Idealize.ShloMosaic.PureOps.Ideal
import Idealize.ShloMosaic.PureOps.Ideal.Laws
import Idealize.ShloMosaic.Lib.ValueIdx
import proofs.«420421_j72438918414396_3_alg».proof.Proof.LibRows

noncomputable section

namespace Cert.Spec

open Idealize.ShloMosaic Idealize.ShloMosaic.ValueIdx
open scoped BigOperators

abbrev T2048x1024 : Shape := ⟨2, ![2048, 1024]⟩
abbrev T1024x1024 : Shape := ⟨2, ![1024, 1024]⟩
abbrev T64x1024 : Shape := ⟨2, ![64, 1024]⟩
abbrev T64x1x1024 : Shape := ⟨3, ![64, 1, 1024]⟩
abbrev T64x256x2 : Shape := ⟨3, ![64, 256, 2]⟩
abbrev T1024 : Shape := ⟨1, ![1024]⟩
abbrev T1024x512 : Shape := ⟨2, ![1024, 512]⟩
abbrev T512 : Shape := ⟨1, ![512]⟩

/-- The clip of a flat relation row, -/
def bat (ρ : Fin 16384) : Fin 64 := ⟨ρ.val / 256, by omega⟩
/-- and its relation inside the clip. -/
def rel (ρ : Fin 16384) : Fin 256 := ⟨ρ.val % 256, by omega⟩
/-- Row q of the top half of W1, -/
def top (q : Fin 1024) : Fin 2048 := ⟨q.val, by omega⟩
/-- and row q of its bottom half. -/
def bot (q : Fin 1024) : Fin 2048 := ⟨1024 + q.val, by omega⟩
/-- The place of clip b inside its group of four clips, -/
def gl (b : Fin 64) : Fin 4 := ⟨b.val % 4, by omega⟩
/-- and row n of that group's 128 object rows, as a row of the whole table. -/
def grow (b : Fin 64) (n : Fin 128) : Fin 2048 := ⟨128 * (b.val / 4) + n.val, by omega⟩

/-- One half, as the 16-bit pattern spells it, -/
def halfK : EReal := Ideal.ofBits .bf16 0x3F00#16
/-- and as the 32-bit pattern spells it. -/
def halfR : EReal := Ideal.ofBits .f32 0x3F000000#32

/-- A pair index clipped into 0..31 (signed). -/
def clip (w : BitVec 32) : BitVec 32 := IntOp.minsi 31#32 (IntOp.maxsi 0#32 w)

/-- Whether the word w, moved by 32 times the clip's place in its group, names row n of the group: 1 or 0. -/
def hot (w : BitVec 32) (g : Fin 4) (n : Fin 128) : EReal :=
  ((((IntOp.cmpi .eq (IntOp.addi w (IntOp.muli (BitVec.ofNat 32 g.val) 32#32)) (BitVec.ofNat 32 n.val)).setWidth 32).toInt : ℝ) : EReal)

/-- The selector of relation (b, r) at row n of its group, from an array X of words: (hit of the first word + hit of the second) / 2. -/
def selRaw (X : T64x256x2.Idx → BitVec 32) (b : Fin 64) (r : Fin 256) (n : Fin 128) : EReal :=
  (hot (X (ix3 b r 0)) (gl b) n + hot (X (ix3 b r 1)) (gl b) n) * halfK

/-- A product of a 2048 x 1024 array with a 1024 x 1024 array at entry (n, k). -/
def R0E (A : T2048x1024.Idx → EReal) (B : T1024x1024.Idx → EReal) (n : Fin 2048) (k : Fin 1024) : EReal :=
  ∑ q : Fin 1024, A (ix2 n q) * B (ix2 q k)

/-- What the second stage computes at entry (b, r, j) from its five arrays: X0 the projected object rows, X1 the projected
    context rows, X2 the pair words, X3 the second weight matrix, X4 its bias. -/
def R1E (X0 : T2048x1024.Idx → EReal) (X1 : T64x1x1024.Idx → EReal) (X2 : T64x256x2.Idx → BitVec 32)
    (X3 : T1024x512.Idx → EReal) (X4 : T512.Idx → EReal) (b : Fin 64) (r : Fin 256) (j : Fin 512) : EReal :=
  max ((∑ k : Fin 1024, ((∑ n : Fin 128, selRaw X2 b r n * X0 (ix2 (grow b n) k)) + X1 (ix3 b 0 k)) * X3 (ix2 k j)) + X4 (ix1 j)) 0

/-- Object row n projected by the top half of W1, at column k. -/
def projK (O W1 : T2048x1024.Idx → EReal) (n : Fin 2048) (k : Fin 1024) : EReal :=
  ∑ q : Fin 1024, O (ix2 n q) * W1 (ix2 (top q) k)

/-- Context row b projected by the bottom half of W1, plus the bias, at column k. -/
def ctxK (C : T64x1024.Idx → EReal) (W1 : T2048x1024.Idx → EReal) (b1 : T1024.Idx → EReal) (b : Fin 64) (k : Fin 1024) : EReal :=
  (∑ q : Fin 1024, C (ix2 b q) * W1 (ix2 (bot q) k)) + b1 (ix1 k)

/-- The hidden row of relation (b, r), projections first. -/
def HK (O : T2048x1024.Idx → EReal) (C : T64x1024.Idx → EReal) (P : T64x256x2.Idx → BitVec 32)
    (W1 : T2048x1024.Idx → EReal) (b1 : T1024.Idx → EReal) (b : Fin 64) (r : Fin 256) (k : Fin 1024) : EReal :=
  (∑ n : Fin 128, selRaw (fun i => clip (P i)) b r n * projK O W1 (grow b n) k) + ctxK C W1 b1 b k

/-- A row index of the flat table as the gather reads it: a negative word is moved up by 2048, -/
def norm (w : BitVec 32) : BitVec 32 := Scalar.select (IntOp.cmpi .slt w 0#32) (IntOp.addi w 2048#32) w

/-- and the row of the object table named by pair entry p of relation (b, r): the word plus 32 b, normalised, clamped. -/
def rowR (P : T64x256x2.Idx → BitVec 32) (b : Fin 64) (r : Fin 256) (p : Fin 2) : Fin 2048 :=
  Cert.LibRows.rowClamp 2048 (by decide) (norm (IntOp.addi (P (ix3 b r p)) (IntOp.muli (BitVec.ofNat 32 b.val) 32#32)))

/-- The 2048-long input row of relation (b, r): half the sum of its two object rows, then the context row of b. -/
def xR (O : T2048x1024.Idx → EReal) (C : T64x1024.Idx → EReal) (P : T64x256x2.Idx → BitVec 32)
    (b : Fin 64) (r : Fin 256) (q : Fin 2048) : EReal :=
  if h : q.val < 1024 then halfR * (O (ix2 (rowR P b r 0) ⟨q.val, h⟩) + O (ix2 (rowR P b r 1) ⟨q.val, h⟩))
  else C (ix2 b ⟨q.val - 1024, by omega⟩)

/-- The hidden row of relation (b, r), input row first. -/
def HR (O : T2048x1024.Idx → EReal) (C : T64x1024.Idx → EReal) (P : T64x256x2.Idx → BitVec 32)
    (W1 : T2048x1024.Idx → EReal) (b1 : T1024.Idx → EReal) (b : Fin 64) (r : Fin 256) (k : Fin 1024) : EReal :=
  (∑ q : Fin 2048, xR O C P b r q * W1 (ix2 q k)) + b1 (ix1 k)

/-- The common last layer: entry (ρ, j) of the result from the hidden rows. -/
def tailE (H : Fin 64 → Fin 256 → Fin 1024 → EReal) (W2 : T1024x512.Idx → EReal) (b2 : T512.Idx → EReal)
    (ρ : Fin 16384) (j : Fin 512) : EReal :=
  max ((∑ k : Fin 1024, H (bat ρ) (rel ρ) k * W2 (ix2 k j)) + b2 (ix1 j)) 0

end Cert.Spec

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.Region0.lean ====
/-
  The first stage's output array after its four grid points: entry (n, k) is the sum over q of A(n, q) B(q, k), A the array of
  object rows and B the top half of the first weight matrix, as the stage finds them. Each grid point multiplies one block of
  512 rows of A by the whole of B and writes the block back; the four blocks tile the 2048 rows.
-/
import proofs.«420421_j72438918414396_3_alg».proof.Proof.Gen.KernelIdeal.Frame
import proofs.«420421_j72438918414396_3_alg».proof.Proof.Spec
import proofs.«420421_j72438918414396_3_alg».proof.Proof.LibPlainDot
import Idealize.ShloMosaic.Lib.Pipeline.Value

noncomputable section

open Idealize.ShloMosaic Idealize.ShloMosaic.ValueIdx Idealize.SL.Sem Idealize.ShloMosaic.TcCoe
open scoped BigOperators

namespace Cert.KernelIdeal.Val
open Cert.KernelIdeal Cert.KernelIdeal.Gen

/-- The block product at an entry: row p of the row block against column k of the whole matrix. -/
theorem pay0_apply (v0 : Vec Ideal S512x1024 .f32) (v2 : Vec Ideal S1024x1024 .f32) (p : Fin 512) (k : Fin 1024) :
    (k0_pay1 (F := Ideal) v0 v2) (ix2 p k) = ∑ q : Fin 1024, v0 (ix2 p q) * v2 (ix2 q k) := by
  unfold k0_pay1
  rw [shapeCast_self]
  exact PlainDot.matmul_zero_apply (φ₁ := .bf16) (φ₂ := .bf16) none (truncf .bf16 v0 bitsLt_bf16_f32) (truncf .bf16 v2 bitsLt_bf16_f32) p k

/-- The zero offset of a whole-buffer access. -/
theorem proj_off_zero : (![0, 0] : Fin 2 → Nat) = fun _ => 0 := funext fun a => by fin_cases a <;> rfl

/-- The product array: entry (i 0, i 1) of A B. -/
def projArr (A : Vec Ideal S2048x1024 .f32) (B : Vec Ideal S1024x1024 .f32) : Vec Ideal S2048x1024 .bf16 :=
  fun i => Cert.Spec.R0E A B (i 0) (i 1)

/-- One block's product is the rows of the product array the block sits at: if the row block x0 holds rows
    512 s .. 512 s + 511 of A and x1 is B, then entry j of the block product is entry i of A B whenever i is j moved down
    by 512 s rows. -/
theorem proj_block_point (A : Vec Ideal S2048x1024 .f32) (B : Vec Ideal S1024x1024 .f32)
    (x0 : Vec Ideal S512x1024 .f32) (x1 : Vec Ideal S1024x1024 .f32) (s : Nat)
    (h0 : ∀ (y : S512x1024.Idx) (z : S2048x1024.Idx), (z 0).val = s * 512 + (y 0).val → (z 1).val = (y 1).val → x0 y = A z)
    (h1 : x1 = B) (j : S512x1024.Idx) (i : S2048x1024.Idx)
    (hi0 : (i 0).val = s * 512 + (j 0).val) (hi1 : (i 1).val = (j 1).val) :
    k0_pay1 (F := Ideal) x0 x1 j = projArr A B i := by
  subst h1
  obtain ⟨p, k, rfl⟩ : ∃ (p : Fin 512) (k : Fin 1024), j = ix2 p k := ⟨j 0, j 1, eq_ix2 j⟩
  obtain ⟨n, k', rfl⟩ : ∃ (n : Fin 2048) (k' : Fin 1024), i = ix2 n k' := ⟨i 0, i 1, eq_ix2 i⟩
  have ek : k' = k := Fin.ext hi1
  subst ek
  rw [pay0_apply]
  show _ = ∑ q : Fin 1024, A (ix2 n q) * x1 (ix2 q k')
  refine Finset.sum_congr rfl fun q _ => ?_
  rw [h0 (ix2 p q) (ix2 n q) hi0 rfl]

section
variable (V : (c : Dev nD) → (b : Ref sig .tc) → Buf (Elt Ideal) ((c : Thread nD τ).loc b))

/-- The printed index maps over the four grid points: the two row-block windows sit at block (t, 0), the whole matrix at (0, 0). -/
theorem proj_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point t is rows 512 t .. 512 t + 511 of the array of object rows. -/
theorem proj_iblk_rows (c : Dev nD) (t : Fin cfg0.N) (y : S512x1024.Idx) (z : S2048x1024.Idx)
    (hz0 : (z 0).val = t.val * 512 + (y 0).val) (hz1 : (z 1).val = (y 1).val) :
    (iblk0 V c 0 t : Vec Ideal S512x1024 .f32) y = (V c main_arg0 : Vec Ideal S2048x1024 .f32) z := by
  obtain ⟨e0, e1, -⟩ := proj_idx_facts t
  unfold iblk0
  rw [View.read_apply]
  show V c main_arg0 (((cfg0.win 0).blk t).view.emb y) = V c main_arg0 z
  refine congrArg _ (funext fun a => Fin.ext ?_)
  match a with
  | ⟨0, _⟩ => show win0_0.index t (0 : Fin 2) * 512 + 1 * (y 0).val = (z 0).val; omega
  | ⟨1, _⟩ => show win0_0.index t (1 : Fin 2) * 1024 + 1 * (y 1).val = (z 1).val; omega

/-- The second window's block is the whole weight matrix at every point. -/
theorem proj_iblk_whole (c : Dev nD) (t : Fin cfg0.N) :
    (iblk0 V c 1 t : Vec Ideal S1024x1024 .f32) = (V c main_v1 : Vec Ideal S1024x1024 .f32) := by
  obtain ⟨-, -, e2, e3, -⟩ := proj_idx_facts t
  funext y
  unfold iblk0
  rw [View.read_apply]
  show V c main_v1 (((cfg0.win 1).blk t).view.emb y) = V c main_v1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- What point t writes back is block t of the product array. -/
theorem proj_flushed_eq (c : Dev nD) (t : Fin cfg0.N) :
    (dat0 V c).flushed 2 t = ((cfg0.win 2).blk t).view.read (Elt Ideal) (projArr (V c main_arg0) (V c main_v1)) := by
  show (cfg0.win 2).cut (grid0.coords t) ((dat0 V c).after 2 t) = _
  rw [after0_2]
  unfold out0_2
  rw [View.canon_unit_zero proj_off_zero]
  simp only [View.ld_unit_zero (S := S512x1024) proj_off_zero, View.ld_unit_zero (S := S1024x1024) proj_off_zero]
  obtain ⟨-, -, -, -, e4, e5⟩ := proj_idx_facts t
  funext j
  show k0_pay1 (F := Ideal) (iblk0 V c 0 t) (iblk0 V c 1 t) j = projArr (V c main_arg0) (V c main_v1) (((cfg0.win 2).blk t).view.emb j)
  refine proj_block_point (V c main_arg0) (V c main_v1) (iblk0 V c 0 t) (iblk0 V c 1 t) t.val (proj_iblk_rows V c t) (proj_iblk_whole V c t) j (((cfg0.win 2).blk t).view.emb j) ?_ ?_
  · show win0_2.index t (0 : Fin 2) * 512 + 1 * (j 0).val = t.val * 512 + (j 0).val; omega
  · show win0_2.index t (1 : Fin 2) * 1024 + 1 * (j 1).val = (j 1).val; omega

/-- An index of the output array is in point t's block iff each coordinate is in the block's range on its axis. -/
theorem proj_mem_blk (t : Fin cfg0.N) (i : S2048x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3).slice (win0_2.rect t)).set ↔ _
  rw [View.set_slice_whole, Rect.mem_set_unit]
  exact Iff.rfl

/-- The four row blocks tile the 2048 rows: row r lies in the block of point r / 512. -/
theorem proj_cover (i : S2048x1024.Idx) : ∃ t : Fin cfg0.N, (cfg0.win 2).flush t = true ∧ i ∈ ((cfg0.win 2).blk t).view.set := by
  have hi0 : (i 0).val < 2048 := (i 0).isLt
  have hi1 : (i 1).val < 1024 := (i 1).isLt
  have hN : cfg0.N = 4 := N_0
  obtain ⟨t, ht⟩ : ∃ t : Fin cfg0.N, t.val = (i 0).val / 512 := ⟨⟨(i 0).val / 512, by rw [hN]; omega⟩, rfl⟩
  obtain ⟨-, -, -, -, e4, e5⟩ := proj_idx_facts t
  refine ⟨t, flush0_2 t, ?_⟩
  rw [proj_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- So the output array ends holding the product array. -/
theorem proj_final (c : Dev nD) : (dat0 V c).arrAt 2 cfg0.N = projArr (V c main_arg0) (V c main_v1) :=
  (dat0 V c).arrAt_eq_of_cover 2 (projArr (V c main_arg0) (V c main_v1)) (fun t _ => proj_flushed_eq V c t) proj_cover

end

/-- The output array after the stage, at entry (n, k). -/
theorem region0_apply (V : (c : Dev nD) → (b : Ref sig .tc) → Buf (Elt Ideal) ((c : Thread nD τ).loc b)) (c : Dev nD) (n : Fin 2048) (k : Fin 1024) :
    ((dat0 (F := Ideal) V c).arrAt 2 cfg0.N : (⟨S2048x1024, .bf16⟩ : BufTy).Contents (Elt Ideal)) (ix2 n k)
      = Cert.Spec.R0E (V c main_arg0) (V c main_v1) n k :=
  congrFun (proj_final V c) (ix2 n k)

end Cert.KernelIdeal.Val

end
-- ==== Proof.Region1Pay.lean ====
/-
  What one grid point of the second stage computes, at entry (g, r, j) of its 4 x 256 x 512 block, from the values it loads:
  the pair words v0 (4 x 256 x 2), the 128 projected object rows v27, the four projected context rows v30, the second weight
  matrix v39 and its bias v41. Row 256 g + r of the 1024 x 128 selector has, at column n, (hit of word 0 + hit of word 1) / 2,
  a hit being "the word plus 32 g equals n"; the selector times v27 plus context row g is the hidden row; the hidden row times
  v39 plus the bias, cut below at zero, is the entry.
-/
import proofs.«420421_j72438918414396_3_alg».proof.Proof.Gen.KernelIdeal.Frame
import proofs.«420421_j72438918414396_3_alg».proof.Proof.Spec
import proofs.«420421_j72438918414396_3_alg».proof.Proof.LibPlainDot
import Idealize.ShloMosaic.Lib.Pipeline.Value

noncomputable section

open Idealize.ShloMosaic Idealize.ShloMosaic.ValueIdx Idealize.SL.Sem Idealize.ShloMosaic.TcCoe
open scoped BigOperators

namespace Cert.KernelIdeal.Val
open Cert.KernelIdeal Cert.KernelIdeal.Gen

/-- Row 256 g + r of the column of shifted words: the word (g, r, c) plus 32 g. -/
theorem col_apply (w : IVec S4x256x2 32) (off : Fin S4x256x2.rank → Nat) (c : Fin 2)
    (h0 : off 0 = 0) (h1 : off 1 = 0) (h2 : off 2 = c.val)
    (hs : S4x256x2.Slices off S4x256x1) (hc : S4x256x1.ShapeCasts S1024x1) (hi : S4x256x1.Iotas .tc 32 [0])
    (g : Fin 4) (r : Fin 256) (hρ : 256 * g.val + r.val < 1024) :
    shapeCast S1024x1 (addi (extractStridedSlice S4x256x1 off w hs)
        (muli (iota .tc S4x256x1 32 [0] hi) (broadcast S4x256x1 32#32))) hc (ix2 ⟨256 * g.val + r.val, hρ⟩ 0)
      = IntOp.addi (w (ix3 g r c)) (IntOp.muli (BitVec.ofNat 32 g.val) 32#32) := by
  refine (shapeCast_apply _ hc _ (ix3 g r 0) ?_).trans ?_
  · rw [Shape.rowMajor_val_three, Shape.rowMajor_val_two]
    show (g.val * 256 + r.val) * 1 + 0 = (256 * g.val + r.val) * 1 + 0
    omega
  · show IntOp.addi (extractStridedSlice S4x256x1 off w hs (ix3 g r 0))
        (IntOp.muli (iota .tc S4x256x1 32 [0] hi (ix3 g r 0)) 32#32) = _
    rw [extractStridedSlice_apply off w hs (ix3 g r 0) (ix3 g r c) (fun a => by
          match a with
          | ⟨0, _⟩ => show g.val = off 0 + g.val; omega
          | ⟨1, _⟩ => show r.val = off 1 + r.val; omega
          | ⟨2, _⟩ => show c.val = off 2 + 0; omega),
      iota_single_apply]

/-- One hit: at (ρ, n) the 0/1 value of "the column's word at row ρ equals n". -/
theorem hit_apply (c : IVec S1024x1 32) (hb : S1024x1.Broadcasts S1024x128) (hb' : S1x128.Broadcasts S1024x128)
    (hi : S1x128.Iotas .tc 32 [1]) (h32 : 1 < 32) (hbf : FTy.bf16.bits < FTy.f32.bits) (ρ : Fin 1024) (n : Fin 128) :
    (truncf .bf16 (sitofp (F := Ideal) .f32 (extui 32 (cmpi .eq (broadcastTo S1024x128 c hb)
        (broadcastTo S1024x128 (iota .tc S1x128 32 [1] hi) hb')) h32)) hbf) (ix2 ρ n)
      = ((((IntOp.cmpi .eq (c (ix2 ρ 0)) (BitVec.ofNat 32 n.val)).setWidth 32).toInt : ℝ) : EReal) := by
  show ((((IntOp.cmpi .eq (broadcastTo S1024x128 c hb (ix2 ρ n))
        (broadcastTo S1024x128 (iota .tc S1x128 32 [1] hi) hb' (ix2 ρ n))).setWidth 32).toInt : ℝ) : EReal) = _
  rw [broadcastTo_apply c hb (ix2 ρ n) (ix2 ρ 0) (fun a => by
        match a with
        | ⟨0, _⟩ => rfl
        | ⟨1, _⟩ => rfl),
    broadcastTo_apply (iota .tc S1x128 32 [1] hi) hb' (ix2 ρ n) (ix2 0 n) (fun a => by
        match a with
        | ⟨0, _⟩ => rfl
        | ⟨1, _⟩ => rfl),
    iota_single_apply]

/-- The context rows spread over the relations: row 256 g + r is context row g. -/
theorem ctx_apply {α : Type} (x : S4x1x1024.Idx → α) (h1 : S4x1x1024.ShapeCasts S4x1x1024) (h2 : S4x1x1024.ShapeCasts S4x1024)
    (h3 : S4x1024.ShapeCasts S4x1x1024) (h4 : S4x1x1024.ShapeCasts S4x1x1024) (hb : S4x1x1024.Broadcasts S4x256x1024)
    (h5 : S4x256x1024.ShapeCasts S1024x1024) (g : Fin 4) (r : Fin 256) (hρ : 256 * g.val + r.val < 1024) (k : Fin 1024) :
    shapeCast S1024x1024 (broadcastTo S4x256x1024 (shapeCast S4x1x1024 (shapeCast S4x1x1024 (shapeCast S4x1024
        (shapeCast S4x1x1024 x h1) h2) h3) h4) hb) h5 (ix2 ⟨256 * g.val + r.val, hρ⟩ k) = x (ix3 g 0 k) := by
  rw [shapeCast_self x h1, shapeCast_shapeCast x h2 h3, shapeCast_self x h4]
  refine (shapeCast_apply _ h5 _ (ix3 g r k) ?_).trans (broadcastTo_apply x hb (ix3 g r k) (ix3 g 0 k) fun a => ?_)
  · rw [Shape.rowMajor_val_three, Shape.rowMajor_val_two]
    show (g.val * 256 + r.val) * 1024 + k.val = (256 * g.val + r.val) * 1024 + k.val
    omega
  · match a with
    | ⟨0, _⟩ => rfl
    | ⟨1, _⟩ => rfl
    | ⟨2, _⟩ => rfl

/-- The selector from its two columns of shifted words, at (ρ, n): the two hits, halved. -/
theorem sel_apply (c0 c1 : IVec S1024x1 32) (hb : S1024x1.Broadcasts S1024x128) (hb' : S1x128.Broadcasts S1024x128)
    (hi : S1x128.Iotas .tc 32 [1]) (h32 : 1 < 32) (hbf : FTy.bf16.bits < FTy.f32.bits) (ρ : Fin 1024) (n : Fin 128) :
    mulf (addf
        (truncf .bf16 (sitofp (F := Ideal) .f32 (extui 32 (cmpi .eq (broadcastTo S1024x128 c0 hb)
          (broadcastTo S1024x128 (iota .tc S1x128 32 [1] hi) hb')) h32)) hbf)
        (truncf .bf16 (sitofp (F := Ideal) .f32 (extui 32 (cmpi .eq (broadcastTo S1024x128 c1 hb)
          (broadcastTo S1024x128 (iota .tc S1x128 32 [1] hi) hb')) h32)) hbf))
        (broadcast S1024x128 (Scalar.ofBits (F := Ideal) .bf16 0x3F00#16)) (ix2 ρ n)
      = (((((IntOp.cmpi .eq (c0 (ix2 ρ 0)) (BitVec.ofNat 32 n.val)).setWidth 32).toInt : ℝ) : EReal)
          + ((((IntOp.cmpi .eq (c1 (ix2 ρ 0)) (BitVec.ofNat 32 n.val)).setWidth 32).toInt : ℝ) : EReal))
        * Cert.Spec.halfK :=
  congrArg₂ (fun a b : EReal => (a + b) * Cert.Spec.halfK)
    (hit_apply c0 hb hb' hi h32 hbf ρ n) (hit_apply c1 hb hb' hi h32 hbf ρ n)

/-- A hidden row entry: the selector row against the projected object rows, plus the context term. -/
theorem hid_apply (s : FVec Ideal S1024x128 .bf16) (p : FVec Ideal S128x1024 .bf16) (c : FVec Ideal S1024x1024 .f32)
    (hc : S128x1024.ShapeCasts S128x1024) (hbf : FTy.bf16.bits < FTy.f32.bits) (ρ k : Fin 1024) :
    truncf .bf16 (addf (matmul dot_S1024x128_S128x1024_S1024x1024_1_0_0_1_n_n none s (shapeCast S128x1024 p hc)
        (constant (F := Ideal) S1024x1024 .f32 0x00000000#32)) c) hbf (ix2 ρ k)
      = (∑ n : Fin 128, s (ix2 ρ n) * p (ix2 n k)) + c (ix2 ρ k) := by
  rw [shapeCast_self p hc]
  exact congrArg (· + c (ix2 ρ k)) (Idealize.ShloMosaic.PlainDot.matmul_zero_apply (φ₁ := .bf16) (φ₂ := .bf16) none s p ρ k)

/-- The product of the hidden rows with the second weight matrix, at (256 g + r, j). -/
theorem pay2_apply (v0 : Vec Ideal S4x256x2 .i32) (v27 : Vec Ideal S128x1024 .bf16) (v30 : Vec Ideal S4x1x1024 .f32)
    (v39 : Vec Ideal S1024x512 .bf16) (g : Fin 4) (r : Fin 256) (hρ : 256 * g.val + r.val < 1024) (j : Fin 512) :
    k1_pay2 (F := Ideal) v0 v27 v30 v39 (ix2 ⟨256 * g.val + r.val, hρ⟩ j)
      = ∑ k : Fin 1024, ((∑ n : Fin 128, ((Cert.Spec.hot (v0 (ix3 g r 0)) g n + Cert.Spec.hot (v0 (ix3 g r 1)) g n) * Cert.Spec.halfK) * v27 (ix2 n k))
              + v30 (ix3 g 0 k)) * v39 (ix2 k j) := by
  unfold k1_pay2
  rw [shapeCast_self v39 shapeCasts_S1024x512_S1024x512]
  refine (Idealize.ShloMosaic.PlainDot.matmul_zero_apply (φ₁ := .bf16) (φ₂ := .bf16) none _ v39 ⟨256 * g.val + r.val, hρ⟩ j).trans ?_
  refine Finset.sum_congr rfl fun k _ => congrArg (· * v39 (ix2 k j)) ?_
  refine (hid_apply _ v27 _ shapeCasts_S128x1024_S128x1024 bitsLt_bf16_f32 ⟨256 * g.val + r.val, hρ⟩ k).trans ?_
  refine congrArg₂ (· + ·) (Finset.sum_congr rfl fun n _ => congrArg (· * v27 (ix2 n k)) ?_) ?_
  · refine (sel_apply _ _ broadcasts_S1024x1_S1024x128 broadcasts_S1x128_S1024x128 iota_S1x128_d1_w32 natLt_1_32
      bitsLt_bf16_f32 ⟨256 * g.val + r.val, hρ⟩ n).trans ?_
    rw [shapeCast_self v0 shapeCasts_S4x256x2_S4x256x2,
      col_apply v0 ![0, 0, 0] 0 rfl rfl rfl slices_S4x256x2_o0_0_0_S4x256x1 shapeCasts_S4x256x1_S1024x1 iota_S4x256x1_d0_w32 g r hρ,
      col_apply v0 ![0, 0, 1] 1 rfl rfl rfl slices_S4x256x2_o0_0_1_S4x256x1 shapeCasts_S4x256x1_S1024x1 iota_S4x256x1_d0_w32 g r hρ]
    rfl
  · exact ctx_apply v30 shapeCasts_S4x1x1024_S4x1x1024 shapeCasts_S4x1x1024_S4x1024 shapeCasts_S4x1024_S4x1x1024
      shapeCasts_S4x1x1024_S4x1x1024 broadcasts_S4x1x1024_S4x256x1024 shapeCasts_S4x256x1024_S1024x1024 g r hρ k

/-- The second stage's stored value at entry (g, r, j). -/
theorem pay1_apply (v0 : Vec Ideal S4x256x2 .i32) (v27 : Vec Ideal S128x1024 .bf16) (v30 : Vec Ideal S4x1x1024 .f32)
    (v39 : Vec Ideal S1024x512 .bf16) (v41 : Vec Ideal S512 .f32) (g : Fin 4) (r : Fin 256) (j : Fin 512) :
    (k1_pay1 (F := Ideal) (k1_pay2 v0 v27 v30 v39) (k1_pay3 v41)) (ix3 g r j)
      = max ((∑ k : Fin 1024, ((∑ n : Fin 128, ((Cert.Spec.hot (v0 (ix3 g r 0)) g n + Cert.Spec.hot (v0 (ix3 g r 1)) g n) * Cert.Spec.halfK) * v27 (ix2 n k))
              + v30 (ix3 g 0 k)) * v39 (ix2 k j)) + v41 (ix1 j)) 0 := by
  have hρ : 256 * g.val + r.val < 1024 := by omega
  unfold k1_pay1 k1_pay3
  refine (shapeCast_apply _ shapeCasts_S1024x512_S4x256x512 (ix3 g r j) (ix2 ⟨256 * g.val + r.val, hρ⟩ j) ?_).trans ?_
  · rw [Shape.rowMajor_val_two, Shape.rowMajor_val_three]
    show (256 * g.val + r.val) * 512 + j.val = (g.val * 256 + r.val) * 512 + j.val
    omega
  · show max (k1_pay2 (F := Ideal) v0 v27 v30 v39 (ix2 ⟨256 * g.val + r.val, hρ⟩ j)
        + broadcastTo S1024x512 (shapeCast S1x512 v41 shapeCasts_S512_S1x512) broadcasts_S1x512_S1024x512 (ix2 ⟨256 * g.val + r.val, hρ⟩ j))
        (Ideal.ofBits .f32 0x00000000#32) = _
    rw [pay2_apply v0 v27 v30 v39 g r hρ j, Ideal.ofBits_zero_f32,
      broadcastTo_apply _ broadcasts_S1x512_S1024x512 (ix2 ⟨256 * g.val + r.val, hρ⟩ j) (ix2 0 j) (fun a => by
        match a with
        | ⟨0, _⟩ => rfl
        | ⟨1, _⟩ => rfl),
      shapeCast_apply v41 shapeCasts_S512_S1x512 (ix2 0 j) (ix1 j) (by
        rw [Shape.rowMajor_val_one, Shape.rowMajor_val_two]
        show j.val = 0 * 512 + j.val
        omega)]

end Cert.KernelIdeal.Val

end
-- ==== Proof.Region1.lean ====
/-
  The second stage's output array after its sixteen grid points: entry (b, r, j) is the specification's R1E of the five arrays
  the stage finds. Grid point t handles the four clips 4 t .. 4 t + 3: it reads rows 128 t .. 128 t + 127 of the projected
  object rows, context rows and pair words of those four clips, the whole second weight matrix and bias, and writes back the
  block of those four clips; the sixteen blocks tile the 64 clips.
-/
import proofs.«420421_j72438918414396_3_alg».proof.Proof.Gen.KernelIdeal.Frame
import proofs.«420421_j72438918414396_3_alg».proof.Proof.Spec
import proofs.«420421_j72438918414396_3_alg».proof.Proof.Region1Pay
import Idealize.ShloMosaic.Lib.Pipeline.Value

noncomputable section

open Idealize.ShloMosaic Idealize.ShloMosaic.ValueIdx Idealize.SL.Sem Idealize.ShloMosaic.TcCoe
open scoped BigOperators

namespace Cert.KernelIdeal.Val
open Cert.KernelIdeal Cert.KernelIdeal.Gen

namespace Region1Blocks

/-- Zero offsets, however many axes. -/
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices at grid point t: the object rows, the context rows, the pair words and the output move with t along
    their first axis and stay at 0 on the others; the second weight matrix and the bias are whole. -/
theorem blockIndex1 : ∀ t : Fin cfg1.N,
      win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = 0
    ∧ win1_4.index t (0 : Fin 1) = 0
    ∧ win1_5.index t (0 : Fin 3) = t.val ∧ win1_5.index t (1 : Fin 3) = 0 ∧ win1_5.index t (2 : Fin 3) = 0 :=
  (by decide +kernel : ∀ t : Fin grid1.N, _)

/-- The whole output array as one function of the five arrays the stage finds. -/
abbrev wholeOut1 (X0 : S2048x1024.Idx → EReal) (X1 : S64x1x1024.Idx → EReal) (X2 : S64x256x2.Idx → BitVec 32)
    (X3 : S1024x512.Idx → EReal) (X4 : S512.Idx → EReal) : S64x256x512.Idx → EReal :=
  fun i => Cert.Spec.R1E X0 X1 X2 X3 X4 (i 0) (i 1) (i 2)

/-- One block entry from blocks that are the right parts of the arrays: if x0 holds the 128 object rows of clip b's group,
    x1 and x2 hold at place g the context row and the pair words of clip b, g being b's place in its group, and x3, x4
    are the second layer whole, then entry (g, r, j) of the computed block is the specification's entry (b, r, j). -/
theorem block1_apply (X0 : S2048x1024.Idx → EReal) (X1 : S64x1x1024.Idx → EReal) (X2 : S64x256x2.Idx → BitVec 32)
    (X3 : S1024x512.Idx → EReal) (X4 : S512.Idx → EReal)
    (x0 : Vec Ideal S128x1024 .bf16) (x1 : Vec Ideal S4x1x1024 .f32) (x2 : Vec Ideal S4x256x2 .i32)
    (x3 : Vec Ideal S1024x512 .bf16) (x4 : Vec Ideal S512 .f32)
    (b : Fin 64) (g : Fin 4) (hg : g = Cert.Spec.gl b)
    (h0 : ∀ (n : Fin 128) (k : Fin 1024), x0 (ix2 n k) = X0 (ix2 (Cert.Spec.grow b n) k))
    (h1 : ∀ k : Fin 1024, x1 (ix3 g 0 k) = X1 (ix3 b 0 k))
    (h2 : ∀ (r : Fin 256) (p : Fin 2), x2 (ix3 g r p) = X2 (ix3 b r p))
    (h3 : ∀ (k : Fin 1024) (j : Fin 512), x3 (ix2 k j) = X3 (ix2 k j))
    (h4 : ∀ j : Fin 512, x4 (ix1 j) = X4 (ix1 j))
    (r : Fin 256) (j : Fin 512) :
    k1_pay1 (F := Ideal) (k1_pay2 x2 x0 x1 x3) (k1_pay3 x4) (ix3 g r j) = Cert.Spec.R1E X0 X1 X2 X3 X4 b r j := by
  refine (pay1_apply x2 x0 x1 x3 x4 g r j).trans ?_
  subst hg
  unfold Cert.Spec.R1E Cert.Spec.selRaw
  simp only [h0, h1, h2, h3, h4]

/-- What grid point t writes back is block t of the whole-array function: entry (g, r, q) of its block is entry
    (4 t + g, r, q) of the array, its object rows are rows 128 t .. 128 t + 127, and its context rows and pair words are
    those of clips 4 t .. 4 t + 3. -/
theorem flushed1_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (wholeOut1 (V c main_v3) (V c main_v11) (V c main_v0) (V c main_v10) (V c main_arg6)) := by
  show (cfg1.win 5).cut (grid1.coords t) ((dat1 V c).after 5 t) = _
  rw [after1_5]
  unfold out1_5
  rw [View.canon_unit_zero zeros3]
  simp only [View.ld_unit_zero (S := S4x256x2) zeros3, View.ld_unit_zero (S := S128x1024) zeros2, View.ld_unit_zero (S := S4x1x1024) zeros3, View.ld_unit_zero (S := S1024x512) zeros2, View.ld_unit_zero (S := S512) zeros1]
  refine funext fun (j : S4x256x512.Idx) => ?_
  obtain ⟨g, r, q, rfl⟩ : ∃ (g : Fin 4) (r : Fin 256) (q : Fin 512), j = ix3 g r q := ⟨j 0, j 1, j 2, eq_ix3 j⟩
  obtain ⟨e00, e01, e10, e11, e12, e20, e21, e22, e30, e31, e40, e50, e51, e52⟩ := blockIndex1 t
  have ht : t.val < 16 := by have h := t.isLt; have hN : cfg1.N = 16 := N_1; omega
  have hg4 : g.val < 4 := g.isLt
  have hb : 4 * t.val + g.val < 64 := by omega
  show k1_pay1 (F := Ideal) (k1_pay2 (iblk1 V c 2 t) (iblk1 V c 0 t) (iblk1 V c 1 t) (iblk1 V c 3 t)) (k1_pay3 (iblk1 V c 4 t)) (ix3 g r q)
      = wholeOut1 (V c main_v3) (V c main_v11) (V c main_v0) (V c main_v10) (V c main_arg6) (((cfg1.win 5).blk t).view.emb (ix3 g r q))
  have hemb : ((cfg1.win 5).blk t).view.emb (ix3 g r q) = ix3 (⟨4 * t.val + g.val, hb⟩ : Fin 64) r q := by
    funext a; apply Fin.ext
    match a with
    | ⟨0, _⟩ => show win1_5.index t (0 : Fin 3) * 4 + 1 * g.val = 4 * t.val + g.val; omega
    | ⟨1, _⟩ => show win1_5.index t (1 : Fin 3) * 256 + 1 * r.val = r.val; omega
    | ⟨2, _⟩ => show win1_5.index t (2 : Fin 3) * 512 + 1 * q.val = q.val; omega
  rw [hemb]
  show _ = Cert.Spec.R1E (V c main_v3) (V c main_v11) (V c main_v0) (V c main_v10) (V c main_arg6) ⟨4 * t.val + g.val, hb⟩ r q
  refine block1_apply (V c main_v3) (V c main_v11) (V c main_v0) (V c main_v10) (V c main_arg6)
    (iblk1 V c 0 t) (iblk1 V c 1 t) (iblk1 V c 2 t) (iblk1 V c 3 t) (iblk1 V c 4 t) ⟨4 * t.val + g.val, hb⟩ g ?_ ?_ ?_ ?_ ?_ ?_ r q
  · exact Fin.ext (by show g.val = (4 * t.val + g.val) % 4; omega)
  · intro n k
    show (V c main_v3 : S2048x1024.Idx → EReal) (((cfg1.win 0).blk t).view.emb (ix2 n k)) = _
    refine congrArg (V c main_v3 : S2048x1024.Idx → EReal) ?_
    funext a; apply Fin.ext
    match a with
    | ⟨0, _⟩ => show win1_0.index t (0 : Fin 2) * 128 + 1 * n.val = 128 * ((4 * t.val + g.val) / 4) + n.val; omega
    | ⟨1, _⟩ => show win1_0.index t (1 : Fin 2) * 1024 + 1 * k.val = k.val; omega
  · intro k
    show (V c main_v11 : S64x1x1024.Idx → EReal) (((cfg1.win 1).blk t).view.emb (ix3 g 0 k)) = _
    refine congrArg (V c main_v11 : S64x1x1024.Idx → EReal) ?_
    funext a; apply Fin.ext
    match a with
    | ⟨0, _⟩ => show win1_1.index t (0 : Fin 3) * 4 + 1 * g.val = 4 * t.val + g.val; omega
    | ⟨1, _⟩ => show win1_1.index t (1 : Fin 3) * 1 + 1 * 0 = 0; omega
    | ⟨2, _⟩ => show win1_1.index t (2 : Fin 3) * 1024 + 1 * k.val = k.val; omega
  · intro r' p
    show (V c main_v0 : S64x256x2.Idx → BitVec 32) (((cfg1.win 2).blk t).view.emb (ix3 g r' p)) = _
    refine congrArg (V c main_v0 : S64x256x2.Idx → BitVec 32) ?_
    funext a; apply Fin.ext
    match a with
    | ⟨0, _⟩ => show win1_2.index t (0 : Fin 3) * 4 + 1 * g.val = 4 * t.val + g.val; omega
    | ⟨1, _⟩ => show win1_2.index t (1 : Fin 3) * 256 + 1 * r'.val = r'.val; omega
    | ⟨2, _⟩ => show win1_2.index t (2 : Fin 3) * 2 + 1 * p.val = p.val; omega
  · intro k j'
    show (V c main_v10 : S1024x512.Idx → EReal) (((cfg1.win 3).blk t).view.emb (ix2 k j')) = _
    refine congrArg (V c main_v10 : S1024x512.Idx → EReal) ?_
    funext a; apply Fin.ext
    match a with
    | ⟨0, _⟩ => show win1_3.index t (0 : Fin 2) * 1024 + 1 * k.val = k.val; omega
    | ⟨1, _⟩ => show win1_3.index t (1 : Fin 2) * 512 + 1 * j'.val = j'.val; omega
  · intro j'
    show (V c main_arg6 : S512.Idx → EReal) (((cfg1.win 4).blk t).view.emb (ix1 j')) = _
    refine congrArg (V c main_arg6 : S512.Idx → EReal) ?_
    funext a; apply Fin.ext
    match a with
    | ⟨0, _⟩ => show win1_4.index t (0 : Fin 1) * 512 + 1 * j'.val = j'.val; omega

/-- An index of the output array lies in grid point t's block iff each coordinate lies in the block's range on its axis. -/
theorem mem_block1 (t : Fin cfg1.N) (i : S64x256x512.Idx) :
    i ∈ ((cfg1.win 5).blk t).view.set ↔ ∀ a : Fin 3, win1_5.index t a * S4x256x512.size a ≤ (i a).val ∧ (i a).val < win1_5.index t a * S4x256x512.size a + S4x256x512.size a := by
  show i ∈ ((View.whole main_v12).slice (win1_5.rect t)).set ↔ _
  rw [View.set_slice_whole, Rect.mem_set_unit]
  exact Iff.rfl

/-- Every entry of the output array is written back by some grid point: clip b by point b / 4. -/
theorem cover1 (i : S64x256x512.Idx) :
    ∃ t : Fin cfg1.N, (cfg1.win 5).flush t = true ∧ i ∈ ((cfg1.win 5).blk t).view.set := by
  have hi0 : (i 0).val < 64 := (i 0).isLt
  have hi1 : (i 1).val < 256 := (i 1).isLt
  have hi2 : (i 2).val < 512 := (i 2).isLt
  have hN : cfg1.N = 16 := N_1
  let t : Fin cfg1.N := ⟨(i 0).val / 4, by rw [hN]; omega⟩
  have htv : t.val = (i 0).val / 4 := rfl
  obtain ⟨-, -, -, -, -, -, -, -, -, -, -, e50, e51, e52⟩ := blockIndex1 t
  refine ⟨t, flush1_5 t, ?_⟩
  rw [mem_block1]
  intro a
  match a with
  | ⟨0, _⟩ => show win1_5.index t (0 : Fin 3) * 4 ≤ (i 0).val ∧ (i 0).val < win1_5.index t (0 : Fin 3) * 4 + 4; omega
  | ⟨1, _⟩ => show win1_5.index t (1 : Fin 3) * 256 ≤ (i 1).val ∧ (i 1).val < win1_5.index t (1 : Fin 3) * 256 + 256; omega
  | ⟨2, _⟩ => show win1_5.index t (2 : Fin 3) * 512 ≤ (i 2).val ∧ (i 2).val < win1_5.index t (2 : Fin 3) * 512 + 512; omega

/-- The output array after the sixteen grid points is the whole-array function. -/
theorem final1 (V : (c : Dev nD) → (b : Ref sig .tc) → Buf (Elt Ideal) ((c : Thread nD τ).loc b)) (c : Dev nD) :
    (dat1 (F := Ideal) V c).arrAt 5 cfg1.N = wholeOut1 (V c main_v3) (V c main_v11) (V c main_v0) (V c main_v10) (V c main_arg6) :=
  (dat1 (F := Ideal) V c).arrAt_eq_of_cover 5 (wholeOut1 (V c main_v3) (V c main_v11) (V c main_v0) (V c main_v10) (V c main_arg6))
    (fun t _ => flushed1_eq V c t) cover1

end Region1Blocks

/-- The output array after the stage, at entry (b, r, j). -/
theorem region1_apply (V : (c : Dev nD) → (b : Ref sig .tc) → Buf (Elt Ideal) ((c : Thread nD τ).loc b)) (c : Dev nD) (b : Fin 64) (r : Fin 256) (j : Fin 512) :
    ((dat1 (F := Ideal) V c).arrAt 5 cfg1.N : (⟨S64x256x512, .f32⟩ : BufTy).Contents (Elt Ideal)) (ix3 b r j)
      = Cert.Spec.R1E (V c main_v3) (V c main_v11) (V c main_v0) (V c main_v10) (V c main_arg6) b r j := by
  rw [Region1Blocks.final1 V c]

end Cert.KernelIdeal.Val

end
-- ==== Proof.KernelValue.lean ====
/-
  The result buffer at the end of the run, as a function of the launch memory: walking back from the last boundary through
  the final reshape, the second stage, the host operations that project the context rows, the first stage, and the host
  operations that clip the pair words and cut the first weight matrix in two.
-/
import proofs.«420421_j72438918414396_3_alg».proof.Proof.Gen.KernelIdeal.Frame
import proofs.«420421_j72438918414396_3_alg».proof.Proof.Spec
import proofs.«420421_j72438918414396_3_alg».proof.Proof.Region0
import proofs.«420421_j72438918414396_3_alg».proof.Proof.Region1
import proofs.«420421_j72438918414396_3_alg».proof.Proof.LibPlainDot
import Idealize.ShloMosaic.Lib.StableHlo.Run
import Idealize.ShloMosaic.Lib.Pipeline.Value

noncomputable section

open Idealize.ShloMosaic Idealize.ShloMosaic.ValueIdx Idealize.SL.Sem Idealize.ShloMosaic.TcCoe
open scoped BigOperators

namespace Cert.KernelIdeal.Val
open Cert.KernelIdeal Cert.KernelIdeal.Gen Idealize.ShloMosaic.StableHlo

variable (m : (ℓ : Loc nD τ sig) → Buf (Elt Ideal) ℓ) (ρ : Dev nD → PrngReg)

/-! ## Up to the first stage: the arguments as launched, the pair words clipped, the first weight matrix cut in two -/

theorem W3_arg0 (c : Dev nD) : W3 m ρ c (Proc.devRef .tc main_arg0) = m ((c.tc : Thread nD τ).loc main_arg0) := by
  show after hostOps0_2 (after hostOps0_1 (after hostOps0 (W0 m ρ c))) (Proc.devRef .tc main_arg0) = _
  after_results
theorem W3_arg1 (c : Dev nD) : W3 m ρ c (Proc.devRef .tc main_arg1) = m ((c.tc : Thread nD τ).loc main_arg1) := by
  show after hostOps0_2 (after hostOps0_1 (after hostOps0 (W0 m ρ c))) (Proc.devRef .tc main_arg1) = _
  after_results
theorem W3_arg4 (c : Dev nD) : W3 m ρ c (Proc.devRef .tc main_arg4) = m ((c.tc : Thread nD τ).loc main_arg4) := by
  show after hostOps0_2 (after hostOps0_1 (after hostOps0 (W0 m ρ c))) (Proc.devRef .tc main_arg4) = _
  after_results
theorem W3_arg5 (c : Dev nD) : W3 m ρ c (Proc.devRef .tc main_arg5) = m ((c.tc : Thread nD τ).loc main_arg5) := by
  show after hostOps0_2 (after hostOps0_1 (after hostOps0 (W0 m ρ c))) (Proc.devRef .tc main_arg5) = _
  after_results
theorem W3_arg6 (c : Dev nD) : W3 m ρ c (Proc.devRef .tc main_arg6) = m ((c.tc : Thread nD τ).loc main_arg6) := by
  show after hostOps0_2 (after hostOps0_1 (after hostOps0 (W0 m ρ c))) (Proc.devRef .tc main_arg6) = _
  after_results

/-- The pair words after the clip. -/
theorem W3_v0 (c : Dev nD) : W3 m ρ c (Proc.devRef .tc main_v0)
    = (fun i => Cert.Spec.clip (m ((c.tc : Thread nD τ).loc main_arg2) i) : (⟨S64x256x2, .i32⟩ : BufTy).Contents (Elt Ideal)) := by
  show after hostOps0_2 (after hostOps0_1 (after hostOps0 (W0 m ρ c))) (Proc.devRef .tc main_v0) = _
  after_results; rfl

/-- The top half of the first weight matrix, -/
theorem W3_v1 (c : Dev nD) : W3 m ρ c (Proc.devRef .tc main_v1)
    = (extractStridedSlice S1024x1024 ![0, 0] (m ((c.tc : Thread nD τ).loc main_arg3)) slices_S2048x1024_S1024x1024_0_0 : (⟨S1024x1024, .f32⟩ : BufTy).Contents (Elt Ideal)) := by
  show after hostOps0_2 (after hostOps0_1 (after hostOps0 (W0 m ρ c))) (Proc.devRef .tc main_v1) = _
  after_results
/-- and its bottom half. -/
theorem W3_v2 (c : Dev nD) : W3 m ρ c (Proc.devRef .tc main_v2)
    = (extractStridedSlice S1024x1024 ![1024, 0] (m ((c.tc : Thread nD τ).loc main_arg3)) slices_S2048x1024_S1024x1024_1024_0 : (⟨S1024x1024, .f32⟩ : BufTy).Contents (Elt Ideal)) := by
  show after hostOps0_2 (after hostOps0_1 (after hostOps0 (W0 m ρ c))) (Proc.devRef .tc main_v2) = _
  after_results

theorem v1_apply (c : Dev nD) (q k : Fin 1024) :
    (W3 m ρ c (Proc.devRef .tc main_v1) : (⟨S1024x1024, .f32⟩ : BufTy).Contents (Elt Ideal)) (ix2 q k)
      = m ((c.tc : Thread nD τ).loc main_arg3) (ix2 (Cert.Spec.top q) k) := by
  rw [W3_v1]
  exact extractStridedSlice_apply _ _ _ _ _ (fun a => by
    match a with
    | ⟨0, _⟩ => show q.val = 0 + q.val; omega
    | ⟨1, _⟩ => show k.val = 0 + k.val; omega)
theorem v2_apply (c : Dev nD) (q k : Fin 1024) :
    (W3 m ρ c (Proc.devRef .tc main_v2) : (⟨S1024x1024, .f32⟩ : BufTy).Contents (Elt Ideal)) (ix2 q k)
      = m ((c.tc : Thread nD τ).loc main_arg3) (ix2 (Cert.Spec.bot q) k) := by
  rw [W3_v2]
  exact extractStridedSlice_apply _ _ _ _ _ (fun a => by
    match a with
    | ⟨0, _⟩ => show 1024 + q.val = 1024 + q.val; rfl
    | ⟨1, _⟩ => show k.val = 0 + k.val; omega)

/-! ## Across the first stage and the second stretch of host operations -/

/-- The projected object rows when the second stage is entered: the first stage's output array. -/
theorem W5_v3 (c : Dev nD) : W5 m ρ c (Proc.devRef .tc main_v3) = (dat0 (V3 m ρ) c).arrAt 2 cfg0.N := by
  show after hostOps1 (W4 m ρ c) (Proc.devRef .tc main_v3) = _
  after_results
  exact W4_arr m ρ c 2

theorem W5_v0 (c : Dev nD) : W5 m ρ c (Proc.devRef .tc main_v0) = W3 m ρ c (Proc.devRef .tc main_v0) := by
  show after hostOps1 (W4 m ρ c) (Proc.devRef .tc main_v0) = _
  after_results
  exact W4_of_ne m ρ c main_v0 (by decide)

theorem W5_arg6 (c : Dev nD) : W5 m ρ c (Proc.devRef .tc main_arg6) = m ((c.tc : Thread nD τ).loc main_arg6) := by
  show after hostOps1 (W4 m ρ c) (Proc.devRef .tc main_arg6) = _
  after_results
  exact (W4_of_ne m ρ c main_arg6 (by decide)).trans (W3_arg6 m ρ c)

/-- The host operations that project the context rows, as one function of the context rows A, the bottom half B of the first
    weight matrix and the bias: A B plus the bias on every row, laid out with a unit middle axis. -/
def ctxTerm (A : FVec Ideal S64x1024 .f32) (B : FVec Ideal S1024x1024 .f32) (bb : FVec Ideal S1024 .f32) : FVec Ideal S64x1x1024 .f32 :=
  shapeCast S64x1x1024
    (addf (F := Ideal)
      (Host.dotGeneral (F := Ideal) dot_S64x1024_S1024x1024_S64x1024_1_0_0_1_n_n none
        (truncf (F := Ideal) .bf16 A bitsLt_bf16_f32) (truncf (F := Ideal) .bf16 B bitsLt_bf16_f32))
      (broadcastInDim S64x1024 ![0, 1] bcast_S1x1024_S64x1024_0_1 (broadcastInDim S1x1024 ![1] bcast_S1024_S1x1024_1 bb)))
    shapeCasts_S64x1024_S64x1x1024

/-- Its entry (b, 0, k): row b of A against column k of B, plus the bias at k. -/
theorem ctxTerm_apply (A : FVec Ideal S64x1024 .f32) (B : FVec Ideal S1024x1024 .f32) (bb : FVec Ideal S1024 .f32) (b : Fin 64) (k : Fin 1024) :
    ctxTerm A B bb (ix3 b 0 k) = (∑ q : Fin 1024, A (ix2 b q) * B (ix2 q k)) + bb (ix1 k) := by
  unfold ctxTerm
  refine (shapeCast_apply _ _ (ix3 b 0 k) (ix2 b k) (by
    rw [Shape.rowMajor_val_two, Shape.rowMajor_val_three]
    show b.val * 1024 + k.val = (b.val * 1 + 0) * 1024 + k.val
    omega)).trans ?_
  rw [addf_apply]
  have e1 : Host.dotGeneral (F := Ideal) dot_S64x1024_S1024x1024_S64x1024_1_0_0_1_n_n none
      (truncf (F := Ideal) .bf16 A bitsLt_bf16_f32) (truncf (F := Ideal) .bf16 B bitsLt_bf16_f32) (ix2 b k)
      = ∑ q : Fin 1024, A (ix2 b q) * B (ix2 q k) := by
    have hd : dot_S64x1024_S1024x1024_S64x1024_1_0_0_1_n_n = DotDims.plain 64 1024 1024 := rfl
    simp only [Host.dotGeneral]
    rw [hd, Idealize.ShloMosaic.PlainDot.dotGeneral_apply]
    rfl
  have e2 : broadcastInDim S64x1024 ![0, 1] bcast_S1x1024_S64x1024_0_1 (broadcastInDim S1x1024 ![1] bcast_S1024_S1x1024_1 bb) (ix2 b k)
      = bb (ix1 k) := by
    refine (broadcastInDim_apply _ _ _ (ix2 b k) (ix2 (0 : Fin 1) k) (fun a => by
      match a with
      | ⟨0, _⟩ => rfl
      | ⟨1, _⟩ => rfl)).trans ?_
    exact broadcastInDim_apply _ _ _ (ix2 (0 : Fin 1) k) (ix1 k) (fun a => by
      match a with
      | ⟨0, _⟩ => rfl)
  rw [e1, e2]

/-- A product with the top half of the first weight matrix, read through the cut, is the projection by the whole matrix's top rows. -/
theorem R0E_eq_projK (A O W1 : Cert.Spec.T2048x1024.Idx → EReal) (B : Cert.Spec.T1024x1024.Idx → EReal)
    (hA : A = O) (hB : ∀ q k, B (ix2 q k) = W1 (ix2 (Cert.Spec.top q) k)) (n : Fin 2048) (k : Fin 1024) :
    Cert.Spec.R0E A B n k = Cert.Spec.projK O W1 n k := by
  subst hA
  unfold Cert.Spec.R0E Cert.Spec.projK
  simp only [hB]

/-- The second weight matrix when the second stage is entered (the change of format is the identity on the values). -/
theorem W5_v10 (c : Dev nD) : W5 m ρ c (Proc.devRef .tc main_v10) = m ((c.tc : Thread nD τ).loc main_arg5) := by
  show after hostOps1 (W4 m ρ c) (Proc.devRef .tc main_v10) = _
  after_results
  rw [W4_of_ne m ρ c main_arg5 (by decide), W3_arg5]
  rfl

/-- The projected context rows when the second stage is entered, as the host operations' term of the arguments. -/
theorem W5_v11 (c : Dev nD) : W5 m ρ c (Proc.devRef .tc main_v11)
    = ctxTerm (m ((c.tc : Thread nD τ).loc main_arg1)) (W3 m ρ c (Proc.devRef .tc main_v2)) (m ((c.tc : Thread nD τ).loc main_arg4)) := by
  show after hostOps1 (W4 m ρ c) (Proc.devRef .tc main_v11) = _
  after_results
  rw [W4_of_ne m ρ c main_arg1 (by decide), W4_of_ne m ρ c main_v2 (by decide), W4_of_ne m ρ c main_arg4 (by decide),
    W3_arg1, W3_arg4]
  rfl

/-! ## The second stage's arrays, entry by entry -/

/-- A projected object row: the first stage's product with the top half of the first weight matrix. -/
theorem v3_apply (c : Dev nD) (n : Fin 2048) (k : Fin 1024) :
    (W5 m ρ c (Proc.devRef .tc main_v3) : (⟨S2048x1024, .bf16⟩ : BufTy).Contents (Elt Ideal)) (ix2 n k)
      = Cert.Spec.projK (m ((c.tc : Thread nD τ).loc main_arg0)) (m ((c.tc : Thread nD τ).loc main_arg3)) n k := by
  rw [W5_v3]
  exact (region0_apply (V3 m ρ) c n k).trans
    (R0E_eq_projK _ _ _ _ (W3_arg0 m ρ c) (v1_apply m ρ c) n k)

/-- A projected context row: the host's product with the bottom half of the first weight matrix, plus the bias. -/
theorem v11_apply (c : Dev nD) (b : Fin 64) (k : Fin 1024) :
    (W5 m ρ c (Proc.devRef .tc main_v11) : (⟨S64x1x1024, .f32⟩ : BufTy).Contents (Elt Ideal)) (ix3 b 0 k)
      = Cert.Spec.ctxK (m ((c.tc : Thread nD τ).loc main_arg1)) (m ((c.tc : Thread nD τ).loc main_arg3)) (m ((c.tc : Thread nD τ).loc main_arg4)) b k := by
  rw [W5_v11]
  refine (ctxTerm_apply _ _ _ b k).trans ?_
  unfold Cert.Spec.ctxK
  exact congrArg (· + _) (Finset.sum_congr rfl fun q _ => congrArg _ (v2_apply m ρ c q k))

/-- The pair words the second stage reads: the arguments' words, clipped. -/
theorem v0_eq (c : Dev nD) : (W5 m ρ c (Proc.devRef .tc main_v0) : (⟨S64x256x2, .i32⟩ : BufTy).Contents (Elt Ideal))
    = fun i => Cert.Spec.clip (m ((c.tc : Thread nD τ).loc main_arg2) i) :=
  (W5_v0 m ρ c).trans (W3_v0 m ρ c)

/-! ## From the second stage's arrays to the result -/

/-- The second stage's entry over projected object rows, projected context rows and clipped pair words is the last layer over
    the hidden row formed projections first. -/
theorem R1E_eq_tail (X0 : Cert.Spec.T2048x1024.Idx → EReal) (X1 : Cert.Spec.T64x1x1024.Idx → EReal) (X2 : Cert.Spec.T64x256x2.Idx → BitVec 32)
    (X3 : Cert.Spec.T1024x512.Idx → EReal) (X4 : Cert.Spec.T512.Idx → EReal)
    (O : Cert.Spec.T2048x1024.Idx → EReal) (C : Cert.Spec.T64x1024.Idx → EReal) (P : Cert.Spec.T64x256x2.Idx → BitVec 32)
    (W1 : Cert.Spec.T2048x1024.Idx → EReal) (b1 : Cert.Spec.T1024.Idx → EReal)
    (h0 : ∀ n k, X0 (ix2 n k) = Cert.Spec.projK O W1 n k) (h1 : ∀ b k, X1 (ix3 b 0 k) = Cert.Spec.ctxK C W1 b1 b k)
    (h2 : X2 = fun i => Cert.Spec.clip (P i)) (i : Fin 16384) (j : Fin 512) :
    Cert.Spec.R1E X0 X1 X2 X3 X4 (Cert.Spec.bat i) (Cert.Spec.rel i) j = Cert.Spec.tailE (Cert.Spec.HK O C P W1 b1) X3 X4 i j := by
  subst h2
  unfold Cert.Spec.R1E Cert.Spec.tailE Cert.Spec.HK
  simp only [h0, h1]

/-- The result buffer at the last boundary, at entry (i, j). -/
theorem result_apply (c : Dev nD) (i : Fin 16384) (j : Fin 512) :
    (W7 m ρ c (Proc.devRef .tc main_v13) : (⟨S16384x512, .f32⟩ : BufTy).Contents (Elt Ideal)) (ix2 i j)
      = Cert.Spec.tailE (Cert.Spec.HK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg5)) (m ((c.tc : Thread nD τ).loc main_arg6)) i j := by
  have h7 : W7 m ρ c (Proc.devRef .tc main_v13)
      = (shapeCast S16384x512 (W6 m ρ c (Proc.devRef .tc main_v12) : (⟨S64x256x512, .f32⟩ : BufTy).Contents (Elt Ideal))
          shapeCasts_S64x256x512_S16384x512 : (⟨S16384x512, .f32⟩ : BufTy).Contents (Elt Ideal)) := by
    show after hostOps2 (W6 m ρ c) (Proc.devRef .tc main_v13) = _
    after_results
    rfl
  rw [h7]
  refine (shapeCast_apply _ _ (ix2 i j) (ix3 (Cert.Spec.bat i) (Cert.Spec.rel i) j) (by
    rw [Shape.rowMajor_val_three, Shape.rowMajor_val_two]
    show (i.val / 256 * 256 + i.val % 256) * 512 + j.val = i.val * 512 + j.val
    omega)).trans ?_
  rw [show W6 m ρ c (Proc.devRef .tc main_v12) = (dat1 (V5 m ρ) c).arrAt 5 cfg1.N from W6_arr m ρ c 5]
  refine (region1_apply (V5 m ρ) c (Cert.Spec.bat i) (Cert.Spec.rel i) j).trans ?_
  refine (R1E_eq_tail _ _ _ _ _ (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (v3_apply m ρ c) (v11_apply m ρ c) (v0_eq m ρ c) i j).trans ?_
  rw [show V5 m ρ c main_v10 = m ((c.tc : Thread nD τ).loc main_arg5) from W5_v10 m ρ c,
    show V5 m ρ c main_arg6 = m ((c.tc : Thread nD τ).loc main_arg6) from W5_arg6 m ρ c]

end Cert.KernelIdeal.Val

end
-- ==== Proof.RefValue.lean ====
/-
  The reference's result, entry by entry, as the specification's function of its seven arguments: the two row gathers read at
  an index (the index word plus 32 b, a negative word moved up by 2048, clamped into the table), the joined input row read on
  either side of column 1024, and the two contractions and the final maximum as the generated stage lemmas give them.
-/
import proofs.«420421_j72438918414396_3_alg».proof.Proof.Gen.ReferenceIdeal.Read
import proofs.«420421_j72438918414396_3_alg».proof.Proof.Spec
import proofs.«420421_j72438918414396_3_alg».proof.Proof.LibRows

noncomputable section

open Idealize.ShloMosaic Idealize.ShloMosaic.ValueIdx Idealize.SL.Sem Idealize.ShloMosaic.TcCoe
open scoped BigOperators

namespace Cert.ReferenceIdeal.RefVal
open Cert.ReferenceIdeal Cert.ReferenceIdeal.Gen Cert.ReferenceIdeal.Read

/-! ### Index equations: the composed index maps of the layout operations at explicit coordinates -/

/-- The clip offset is broadcast from (b, 0, 0). -/
theorem idx4 (b : Fin 64) (r : Fin 256) (p : Fin 2) : idx_main_v4 (ix3 b r p) = ix3 b 0 0 :=
  funext fun a => Fin.ext (by match a with | ⟨0, _⟩ => rfl | ⟨1, _⟩ => rfl | ⟨2, _⟩ => rfl)

/-- … which is broadcast from entry b of the 64 offsets. -/
theorem idx3 (b : Fin 64) : idx_main_v3 (ix3 b 0 0) = ix1 b :=
  funext fun a => Fin.ext (by match a with | ⟨0, _⟩ => rfl)

/-- The first slice keeps pair entry 0, -/
theorem idx6 (b : Fin 64) (r : Fin 256) : idx_main_v6 (ix3 b r 0) = ix3 b r 0 :=
  funext fun a => Fin.ext (by match a with | ⟨0, _⟩ => rfl | ⟨1, _⟩ => rfl | ⟨2, _⟩ => rfl)

/-- the second slice pair entry 1. -/
theorem idx15 (b : Fin 64) (r : Fin 256) : idx_main_v15 (ix3 b r 0) = ix3 b r 1 :=
  funext fun a => Fin.ext (by match a with | ⟨0, _⟩ => rfl | ⟨1, _⟩ => rfl | ⟨2, _⟩ => rfl)

/-- Dropping the unit axis: (b, r) comes from (b, r, 0). -/
theorem idx7 (b : Fin 64) (r : Fin 256) : idx_main_v7 (ix2 b r) = ix3 b r 0 :=
  funext fun a => Fin.ext (by
    match a with
    | ⟨0, _⟩ => show (b.val * 256 + r.val) / 256 = b.val; omega
    | ⟨1, _⟩ => show (b.val * 256 + r.val) / 1 % 256 = r.val; omega
    | ⟨2, _⟩ => rfl)

theorem idx16 (b : Fin 64) (r : Fin 256) : idx_main_v16 (ix2 b r) = ix3 b r 0 :=
  funext fun a => Fin.ext (by
    match a with
    | ⟨0, _⟩ => show (b.val * 256 + r.val) / 256 = b.val; omega
    | ⟨1, _⟩ => show (b.val * 256 + r.val) / 1 % 256 = r.val; omega
    | ⟨2, _⟩ => rfl)

/-- Putting the unit axis back: (b, r, 0) comes from (b, r). -/
theorem idx13 (b : Fin 64) (r : Fin 256) : idx_main_v13 (ix3 b r 0) = ix2 b r :=
  funext fun a => Fin.ext (by match a with | ⟨0, _⟩ => rfl | ⟨1, _⟩ => rfl)

theorem idx22 (b : Fin 64) (r : Fin 256) : idx_main_v22 (ix3 b r 0) = ix2 b r :=
  funext fun a => Fin.ext (by match a with | ⟨0, _⟩ => rfl | ⟨1, _⟩ => rfl)

/-! ### The index words -/

/-- Pair entry p of relation (b, r), moved by 32 b. -/
theorem word5 (x2 : (⟨S64x256x2, .i32⟩ : BufTy).Contents (Elt Ideal)) (b : Fin 64) (r : Fin 256) (p : Fin 2) :
    val_main_v5 (F := Ideal) x2 (ix3 b r p)
      = IntOp.addi (x2 (ix3 b r p)) (IntOp.muli (BitVec.ofNat 32 b.val) 32#32) := by
  rw [val_main_v5_apply, val_main_v4_apply, idx4, val_main_v3_apply, idx3]
  rfl

/-- The word the first gather reads for relation (b, r): pair entry 0 moved by 32 b, normalised. -/
theorem word13 (x2 : (⟨S64x256x2, .i32⟩ : BufTy).Contents (Elt Ideal)) (b : Fin 64) (r : Fin 256) :
    val_main_v13 (F := Ideal) x2 (ix3 b r 0)
      = Cert.Spec.norm (IntOp.addi (x2 (ix3 b r 0)) (IntOp.muli (BitVec.ofNat 32 b.val) 32#32)) := by
  rw [val_main_v13_apply, idx13, val_main_v12_apply, val_main_v9_apply, val_main_v11_apply, val_main_v8_apply,
    val_main_v10_apply, val_main_v7_apply, idx7, val_main_v6_apply, idx6, word5]
  rfl

/-- The word the second gather reads: pair entry 1 moved by 32 b, normalised. -/
theorem word22 (x2 : (⟨S64x256x2, .i32⟩ : BufTy).Contents (Elt Ideal)) (b : Fin 64) (r : Fin 256) :
    val_main_v22 (F := Ideal) x2 (ix3 b r 0)
      = Cert.Spec.norm (IntOp.addi (x2 (ix3 b r 1)) (IntOp.muli (BitVec.ofNat 32 b.val) 32#32)) := by
  rw [val_main_v22_apply, idx22, val_main_v21_apply, val_main_v18_apply, val_main_v20_apply, val_main_v17_apply,
    val_main_v19_apply, val_main_v16_apply, idx16, val_main_v15_apply, idx15, word5]
  rfl

/-! ### The two gathers -/

/-- The first gathered row of relation (b, r), at column q: the table row its word names, clamped. -/
theorem gather14 (x0 : (⟨S2048x1024, .f32⟩ : BufTy).Contents (Elt Ideal)) (x2 : (⟨S64x256x2, .i32⟩ : BufTy).Contents (Elt Ideal))
    (b : Fin 64) (r : Fin 256) (q : Fin 1024) :
    val_main_v14 (F := Ideal) x0 x2 (ix3 b r q) = x0 (ix2 (Cert.Spec.rowR x2 b r 0) q) := by
  unfold val_main_v14 Cert.Spec.rowR
  rw [← word13]
  exact Cert.LibRows.gather_rows3_apply (by decide) Facts₀.gather_S2048x1024_S64x256x1_S64x256x1024_2_0_n_n_0_2_11024_wf
    x0 (val_main_v13 (F := Ideal) x2) b r q

/-- The second gathered row. -/
theorem gather23 (x0 : (⟨S2048x1024, .f32⟩ : BufTy).Contents (Elt Ideal)) (x2 : (⟨S64x256x2, .i32⟩ : BufTy).Contents (Elt Ideal))
    (b : Fin 64) (r : Fin 256) (q : Fin 1024) :
    val_main_v23 (F := Ideal) x0 x2 (ix3 b r q) = x0 (ix2 (Cert.Spec.rowR x2 b r 1) q) := by
  unfold val_main_v23 Cert.Spec.rowR
  rw [← word22]
  exact Cert.LibRows.gather_rows3_apply (by decide) Facts₀.gather_S2048x1024_S64x256x1_S64x256x1024_2_0_n_n_0_2_11024_wf
    x0 (val_main_v22 (F := Ideal) x2) b r q

/-! ### The joined input row -/

/-- Left of column 1024 the joined row is the halved sum of the two gathered rows, -/
theorem row_left (x0 : (⟨S2048x1024, .f32⟩ : BufTy).Contents (Elt Ideal)) (x1 : (⟨S64x1024, .f32⟩ : BufTy).Contents (Elt Ideal))
    (x2 : (⟨S64x256x2, .i32⟩ : BufTy).Contents (Elt Ideal)) (b : Fin 64) (r : Fin 256) (q : Fin 2048) (h : q.val < 1024) :
    val_main_v29 (F := Ideal) x0 x1 x2 (ix3 b r q) = val_main_v26 (F := Ideal) x0 x2 (ix3 b r (⟨q.val, h⟩ : Fin 1024)) := by
  unfold val_main_v29
  exact concatenate_pair_apply_left (t := S64x256x2048) (s₁ := S64x256x1024) (s₂ := S64x256x1024) 2
    (val_main_v26 (F := Ideal) x0 x2) (val_main_v28 (F := Ideal) x1)
    Facts₀.concatenates_S64x256x1024_S64x256x1024_S64x256x2048_d2 (ix3 b r q) rfl (ix3 b r (⟨q.val, h⟩ : Fin 1024))
    (fun c => by match c with | ⟨0, _⟩ => rfl | ⟨1, _⟩ => rfl | ⟨2, _⟩ => rfl)

/-- and from column 1024 on it is the broadcast context row, 1024 columns back. -/
theorem row_right (x0 : (⟨S2048x1024, .f32⟩ : BufTy).Contents (Elt Ideal)) (x1 : (⟨S64x1024, .f32⟩ : BufTy).Contents (Elt Ideal))
    (x2 : (⟨S64x256x2, .i32⟩ : BufTy).Contents (Elt Ideal)) (b : Fin 64) (r : Fin 256) (q : Fin 2048) (h : ¬ q.val < 1024) :
    val_main_v29 (F := Ideal) x0 x1 x2 (ix3 b r q)
      = val_main_v28 (F := Ideal) x1 (ix3 b r (⟨q.val - 1024, by omega⟩ : Fin 1024)) := by
  unfold val_main_v29
  exact concatenate_pair_apply_right (t := S64x256x2048) (s₁ := S64x256x1024) (s₂ := S64x256x1024) 2
    (val_main_v26 (F := Ideal) x0 x2) (val_main_v28 (F := Ideal) x1)
    Facts₀.concatenates_S64x256x1024_S64x256x1024_S64x256x2048_d2 (ix3 b r q) rfl rfl
    (ix3 b r (⟨q.val - 1024, by omega⟩ : Fin 1024))
    (fun c hc => by match c with | ⟨0, _⟩ => rfl | ⟨1, _⟩ => rfl | ⟨2, _⟩ => exact absurd rfl hc)
    (by show q.val - 1024 + 1024 = q.val; omega)

/-- The context row of clip b is broadcast over the relations: (b, r, q) comes from (b, q). -/
theorem idx28 (b : Fin 64) (r : Fin 256) (q : Fin 1024) : idx_main_v28 (ix3 b r q) = ix3 b 0 q :=
  funext fun a => Fin.ext (by match a with | ⟨0, _⟩ => rfl | ⟨1, _⟩ => rfl | ⟨2, _⟩ => rfl)

theorem idx27 (b : Fin 64) (q : Fin 1024) : idx_main_v27 (ix3 b 0 q) = ix2 b q :=
  funext fun a => Fin.ext (by match a with | ⟨0, _⟩ => rfl | ⟨1, _⟩ => rfl)

/-- Flattening (clip, relation) into one row axis: row i is relation i % 256 of clip i / 256. -/
theorem idx30 (i : Fin 16384) (q : Fin 2048) : idx_main_v30 (ix2 i q) = ix3 (Cert.Spec.bat i) (Cert.Spec.rel i) q :=
  funext fun a => Fin.ext (by
    have hq := q.isLt
    match a with
    | ⟨0, _⟩ => show (i.val * 2048 + q.val) / 524288 = i.val / 256; omega
    | ⟨1, _⟩ => show (i.val * 2048 + q.val) / 2048 % 256 = i.val % 256; omega
    | ⟨2, _⟩ => show (i.val * 2048 + q.val) % 2048 = q.val; omega)

/-- THE JOINED ROW of flat relation row i at column q is the specification's input row. -/
theorem xrow (x0 : (⟨S2048x1024, .f32⟩ : BufTy).Contents (Elt Ideal)) (x1 : (⟨S64x1024, .f32⟩ : BufTy).Contents (Elt Ideal))
    (x2 : (⟨S64x256x2, .i32⟩ : BufTy).Contents (Elt Ideal)) (i : Fin 16384) (q : Fin 2048) :
    val_main_v30 (F := Ideal) x0 x1 x2 (ix2 i q) = Cert.Spec.xR x0 x1 x2 (Cert.Spec.bat i) (Cert.Spec.rel i) q := by
  rw [val_main_v30_apply, idx30]
  unfold Cert.Spec.xR
  by_cases h : q.val < 1024
  · rw [dif_pos h, row_left x0 x1 x2 _ _ q h, val_main_v26_apply, val_main_v24_apply, gather14, gather23,
      val_main_v25_apply]
    rfl
  · rw [dif_neg h, row_right x0 x1 x2 _ _ q h, val_main_v28_apply, idx28, val_main_v27_apply, idx27]

/-! ### The first layer -/

theorem lidx31 (i : Fin 16384) (k : Fin 1024) (q : Fin 2048) : lidx_main_v31 (ix2 i k) q = ix2 i q :=
  funext fun a => Fin.ext (by match a with | ⟨0, _⟩ => rfl | ⟨1, _⟩ => rfl)

theorem ridx31 (i : Fin 16384) (k : Fin 1024) (q : Fin 2048) : ridx_main_v31 (ix2 i k) q = ix2 q k :=
  funext fun a => Fin.ext (by match a with | ⟨0, _⟩ => rfl | ⟨1, _⟩ => rfl)

theorem idx33 (i : Fin 16384) (k : Fin 1024) : idx_main_v33 (ix2 i k) = ix2 0 k :=
  funext fun a => Fin.ext (by match a with | ⟨0, _⟩ => rfl | ⟨1, _⟩ => rfl)

theorem idx32 (k : Fin 1024) : idx_main_v32 (ix2 0 k) = ix1 k :=
  funext fun a => Fin.ext (by match a with | ⟨0, _⟩ => rfl)

/-- THE HIDDEN ROW of flat relation row i at column k: the joined row against the first weight matrix, plus the bias. -/
theorem hidden (x0 : (⟨S2048x1024, .f32⟩ : BufTy).Contents (Elt Ideal)) (x1 : (⟨S64x1024, .f32⟩ : BufTy).Contents (Elt Ideal))
    (x2 : (⟨S64x256x2, .i32⟩ : BufTy).Contents (Elt Ideal)) (x3 : (⟨S2048x1024, .f32⟩ : BufTy).Contents (Elt Ideal))
    (x4 : (⟨S1024, .f32⟩ : BufTy).Contents (Elt Ideal)) (i : Fin 16384) (k : Fin 1024) :
    val_main_v34 (F := Ideal) x0 x1 x2 x3 x4 (ix2 i k)
      = Cert.Spec.HR x0 x1 x2 x3 x4 (Cert.Spec.bat i) (Cert.Spec.rel i) k := by
  rw [val_main_v34_apply, val_main_v31_apply, val_main_v33_apply, idx33, val_main_v32_apply, idx32]
  unfold Cert.Spec.HR
  refine congrArg (fun t => t + x4 (ix1 k)) (Finset.sum_congr rfl fun q _ => ?_)
  rw [lidx31, ridx31, xrow]

/-! ### The last layer -/

theorem lidx35 (i : Fin 16384) (j : Fin 512) (k : Fin 1024) : lidx_main_v35 (ix2 i j) k = ix2 i k :=
  funext fun a => Fin.ext (by match a with | ⟨0, _⟩ => rfl | ⟨1, _⟩ => rfl)

theorem ridx35 (i : Fin 16384) (j : Fin 512) (k : Fin 1024) : ridx_main_v35 (ix2 i j) k = ix2 k j :=
  funext fun a => Fin.ext (by match a with | ⟨0, _⟩ => rfl | ⟨1, _⟩ => rfl)

theorem idx37 (i : Fin 16384) (j : Fin 512) : idx_main_v37 (ix2 i j) = ix2 0 j :=
  funext fun a => Fin.ext (by match a with | ⟨0, _⟩ => rfl | ⟨1, _⟩ => rfl)

theorem idx36 (j : Fin 512) : idx_main_v36 (ix2 0 j) = ix1 j :=
  funext fun a => Fin.ext (by match a with | ⟨0, _⟩ => rfl)

/-- The reference's last stage at entry (i, j). -/
theorem result_apply (x0 : (⟨S2048x1024, .f32⟩ : BufTy).Contents (Elt Ideal)) (x1 : (⟨S64x1024, .f32⟩ : BufTy).Contents (Elt Ideal))
    (x2 : (⟨S64x256x2, .i32⟩ : BufTy).Contents (Elt Ideal)) (x3 : (⟨S2048x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (i : Fin 16384) (j : Fin 512) :
    val_main_v39 (F := Ideal) x0 x1 x2 x3 x4 x5 x6 (ix2 i j)
      = Cert.Spec.tailE (Cert.Spec.HR x0 x1 x2 x3 x4) x5 x6 i j := by
  rw [val_main_v39_apply, val_main_v38_apply, val_main_v35_apply, val_main_v37_apply, idx37, val_main_v36_apply, idx36,
    val_main_call0_v0_apply, val_main_call0_cst_apply]
  unfold Cert.Spec.tailE
  rw [Ideal.maximumf_def, Ideal.addf_def, Ideal.ofBits_def, Ideal.ofBits_zero_f32]
  refine congrArg (fun t => max (t + x6 (ix1 j)) 0) (Finset.sum_congr rfl fun k _ => ?_)
  rw [lidx35, ridx35, hidden]

end Cert.ReferenceIdeal.RefVal

end
-- ==== Proof.LibFinite.lean ====
/-
  Finiteness of extended-real arrays, program-free.

  At the ideal reading of floats (extended reals) an array is ALL REAL when each of its entries is the coercion
  of a real number. Sums distribute over products on the reals but not at the infinities, so an algebraic
  argument about a network of sums, products, quotients and maxima first shows that every intermediate array is
  all real. This file proves that the property is closed under each operation such a network is made of:
  entrywise sum, difference, negation, product, maximum and minimum; a change of float format (the identity on
  extended reals); every re-indexing (shape cast, broadcast, transpose, slice, gather); a constant whose bit
  pattern denotes a real; an accumulating scatter (an entry plus a finite sum of entries); a quotient by reals
  that are not zero; and a contraction (an entry plus a finite sum of products).
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

/-! ## Single extended reals that are real -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of reals into the extended reals commutes with the maximum. -/
theorem coe_max (a b : ℝ) : ((max a b : ℝ) : EReal) = max (a : EReal) (b : EReal) :=
  EReal.coe_strictMono.monotone.map_max

/-- The coercion of reals into the extended reals commutes with the minimum. -/
theorem coe_min (a b : ℝ) : ((min a b : ℝ) : EReal) = min (a : EReal) (b : EReal) :=
  EReal.coe_strictMono.monotone.map_min

/-- The maximum of two reals is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The minimum of two reals is real. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (coe_min a b).symm⟩

/-- A finite sum of coerced reals is the coercion of the sum of the reals. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of reals is real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨ra, hra⟩ := h a (Finset.mem_insert_self a t)
    obtain ⟨rt, hrt⟩ := ih (fun i hi => h i (Finset.mem_insert_of_mem hi))
    exact ⟨ra + rt, by rw [Finset.sum_insert ha, hra, hrt, EReal.coe_add]⟩

/-- The quotient of a real by a real that is not zero is the coercion of the real quotient. -/
theorem div_coe_coe (a : ℝ) {r : ℝ} (h : r ≠ 0) : Ideal.div (a : EReal) (r : EReal) = ((a / r : ℝ) : EReal) := by
  rw [Ideal.div_coe h, ← EReal.coe_mul, mul_one_div]

/-- The quotient of a real by a real that is not zero is real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-! ## Bit patterns that denote reals -/

/-- The f32 pattern of zero denotes the real zero. -/
theorem ofBits_zero_f32_real : Ideal.ofBits .f32 0x00000000#32 = ((0 : ℝ) : EReal) := by
  rw [Ideal.ofBits_zero_f32, EReal.coe_zero]

/-- The f32 pattern 0x3F800000 denotes the real one. -/
theorem ofBits_one_f32_real : Ideal.ofBits .f32 0x3F800000#32 = ((1 : ℝ) : EReal) := by
  simp [Ideal.ofBits, Ideal.ieee, -EReal.coe_mul]; norm_num

/-- The f32 pattern 0x3F800000 denotes the extended real one. -/
theorem ofBits_one_f32 : Ideal.ofBits .f32 0x3F800000#32 = 1 := by
  rw [ofBits_one_f32_real, EReal.coe_one]

/-- The f32 pattern 0x3F000000 denotes the real one half. -/
theorem ofBits_half_f32_real : Ideal.ofBits .f32 0x3F000000#32 = (((1 : ℝ) / 2 : ℝ) : EReal) := by
  simp [Ideal.ofBits, Ideal.ieee, -EReal.coe_mul]; norm_num

/-! ## Arrays all of whose entries are real

An array of extended reals does not record a float format, so where a closure theorem below is applied with no
expected type to read it from, the format is given by name, as in `allReal_scatterAdd (φ := .f32) d idx hx hu`. -/

/-- Every entry is a real number. -/
def AllReal {s : Shape} (v : s.Idx → EReal) : Prop := ∀ i, ∃ r : ℝ, v i = (r : EReal)

variable {s t : Shape} {φ : FTy}

/-- An all-real array is the coercion of a real-valued array. -/
theorem AllReal.exists_real {v : s.Idx → EReal} (h : AllReal v) : ∃ f : s.Idx → ℝ, v = fun i => (f i : EReal) := by
  choose f hf using h
  exact ⟨f, funext hf⟩

/-- The coercion of a real-valued array is all real. -/
theorem allReal_coe (f : s.Idx → ℝ) : AllReal (fun i => (f i : EReal)) := fun i => ⟨f i, rfl⟩

/-- An array equal entry by entry to a real-valued one is all real. -/
theorem allReal_of_eq {v : s.Idx → EReal} (f : s.Idx → ℝ) (h : ∀ i, v i = (f i : EReal)) : AllReal v :=
  fun i => ⟨f i, h i⟩

/-! ### Entrywise arithmetic -/

/-- The entrywise sum of all-real arrays is all real. -/
theorem allReal_addf {x y : FVec Ideal s φ} (hx : AllReal x) (hy : AllReal y) : AllReal (addf x y) :=
  fun i => real_add (hx i) (hy i)

/-- The entrywise difference of all-real arrays is all real. -/
theorem allReal_subf {x y : FVec Ideal s φ} (hx : AllReal x) (hy : AllReal y) : AllReal (subf x y) :=
  fun i => real_sub (hx i) (hy i)

/-- The entrywise negation of an all-real array is all real. -/
theorem allReal_negf {x : FVec Ideal s φ} (hx : AllReal x) : AllReal (negf x) :=
  fun i => real_neg (hx i)

/-- The entrywise product of all-real arrays is all real. -/
theorem allReal_mulf {x y : FVec Ideal s φ} (hx : AllReal x) (hy : AllReal y) : AllReal (mulf x y) :=
  fun i => real_mul (hx i) (hy i)

/-- The entrywise maximum of all-real arrays is all real. -/
theorem allReal_maximumf {x y : FVec Ideal s φ} (hx : AllReal x) (hy : AllReal y) : AllReal (maximumf x y) :=
  fun i => real_max (hx i) (hy i)

/-- The entrywise minimum of all-real arrays is all real. -/
theorem allReal_minimumf {x y : FVec Ideal s φ} (hx : AllReal x) (hy : AllReal y) : AllReal (minimumf x y) :=
  fun i => real_min (hx i) (hy i)

/-! ### Changes of float format: the identity on extended reals -/

/-- Narrowing the format leaves an all-real array all real. -/
theorem allReal_truncf {ψ : FTy} {x : FVec Ideal s φ} (h : ψ.bits < φ.bits) (hx : AllReal x) :
    AllReal (truncf ψ x h : FVec Ideal s ψ) :=
  fun i => hx i

/-- Widening the format leaves an all-real array all real. -/
theorem allReal_extf {ψ : FTy} {x : FVec Ideal s φ} (h : φ.bits < ψ.bits) (hx : AllReal x) :
    AllReal (extf ψ x h : FVec Ideal s ψ) :=
  fun i => hx i

/-! ### Constants and broadcasts -/

/-- A constant array whose bit pattern denotes a real is all real. -/
theorem allReal_constant {b : BitVec φ.bits} (h : ∃ r : ℝ, Ideal.ofBits φ b = (r : EReal)) :
    AllReal (constant (F := Ideal) s φ b) :=
  fun _ => h

/-- The f32 zero constant is all real. -/
theorem allReal_constant_zero : AllReal (constant (F := Ideal) s .f32 0x00000000#32) :=
  allReal_constant ⟨0, ofBits_zero_f32_real⟩

/-- The f32 one constant is all real. -/
theorem allReal_constant_one : AllReal (constant (F := Ideal) s .f32 0x3F800000#32) :=
  allReal_constant ⟨1, ofBits_one_f32_real⟩

/-- The f32 one-half constant is all real. -/
theorem allReal_constant_half : AllReal (constant (F := Ideal) s .f32 0x3F000000#32) :=
  allReal_constant ⟨1 / 2, ofBits_half_f32_real⟩

/-- The broadcast of a real scalar is all real. -/
theorem allReal_broadcast {c : EReal} (h : ∃ r : ℝ, c = (r : EReal)) : AllReal (broadcast s c) :=
  fun _ => h

/-- The broadcast of the f32 zero scalar is all real. -/
theorem allReal_broadcast_zero : AllReal (broadcast s (Scalar.ofBits (F := Ideal) .f32 0x00000000#32)) :=
  allReal_broadcast ⟨0, ofBits_zero_f32_real⟩

/-- The broadcast of the f32 one scalar is all real. -/
theorem allReal_broadcast_one : AllReal (broadcast s (Scalar.ofBits (F := Ideal) .f32 0x3F800000#32)) :=
  allReal_broadcast ⟨1, ofBits_one_f32_real⟩

/-- The broadcast of the f32 one-half scalar is all real. -/
theorem allReal_broadcast_half : AllReal (broadcast s (Scalar.ofBits (F := Ideal) .f32 0x3F000000#32)) :=
  allReal_broadcast ⟨1 / 2, ofBits_half_f32_real⟩

/-! ### Re-indexings: each result entry is an entry of the operand -/

/-- A broadcast along trailing axes of an all-real array is all real. -/
theorem allReal_broadcastTo {x : s.Idx → EReal} (h : s.Broadcasts t) (hx : AllReal x) :
    AllReal (broadcastTo t x h) :=
  fun _ => hx _

/-- A broadcast in named dimensions of an all-real array is all real. -/
theorem allReal_broadcastInDim {x : s.Idx → EReal} {dims : Fin s.rank → Fin t.rank} (h : s.BroadcastsInDim t dims)
    (hx : AllReal x) : AllReal (broadcastInDim t dims h x) :=
  fun _ => hx _

/-- A shape cast of an all-real array is all real. -/
theorem allReal_shapeCast {x : s.Idx → EReal} (h : s.ShapeCasts t) (hx : AllReal x) : AllReal (shapeCast t x h) :=
  fun _ => hx _

/-- A slice of an all-real array is all real. -/
theorem allReal_extractStridedSlice {x : s.Idx → EReal} {off : Fin s.rank → Nat} (h : s.Slices off t)
    (hx : AllReal x) : AllReal (extractStridedSlice t off x h) :=
  fun _ => hx _

/-- A transpose of an all-real array is all real. -/
theorem allReal_transpose {x : s.Idx → EReal} {perm : List (Fin s.rank)} (h : s.Transposes perm t)
    (hx : AllReal x) : AllReal (transpose t perm x h) :=
  fun _ => hx _

/-- A gather from an all-real array is all real, whatever the indices: each result entry is an entry of the operand. -/
theorem allReal_gather {si : Shape} {w : Nat} (d : GatherDims s si t) {x : s.Idx → EReal} (idx : IVec si w)
    (hx : AllReal x) : AllReal (Host.gather d x idx) :=
  fun _ => hx _

/-! ### Accumulating scatter: an operand entry plus a finite sum of update entries -/

/-- An accumulating scatter of all-real updates into an all-real operand is all real, whatever the indices. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

/-! ### Sums along axes: an initial value plus a finite sum of entries -/

/-- A float sum along axes of an all-real array from a real initial value is all real. -/
theorem allReal_reduceAdd {axes : List (Fin s.rank)} {u : Shape} {x : FVec Ideal s φ} {init : u.Idx → Ideal φ}
    (h : s.ReducesTo axes t) (hu : 0 < u.numel) (hx : AllReal x) (hinit : ∀ i, ∃ r : ℝ, init i = (r : EReal)) :
    AllReal (Host.reduceAdd x init h hu) :=
  fun _ => real_add (hinit _) (real_sum _ _ fun i _ => hx i)

/-! ### Quotients -/

/-- The entrywise host quotient of an all-real array by reals that are not zero is all real. -/
theorem allReal_divf {x y : FVec Ideal s φ} (hx : AllReal x) (hy : ∀ i, ∃ r : ℝ, r ≠ 0 ∧ y i = (r : EReal)) :
    AllReal (Host.divf x y) :=
  fun i => real_div (hx i) (hy i)

/-- The entrywise host quotient of an all-real array by reals that are at least one is all real. -/
theorem allReal_divf_of_one_le {x y : FVec Ideal s φ} (hx : AllReal x)
    (hy : ∀ i, ∃ r : ℝ, 1 ≤ r ∧ y i = (r : EReal)) : AllReal (Host.divf x y) :=
  allReal_divf hx fun i => by
    obtain ⟨r, hr, h⟩ := hy i
    exact ⟨r, by linarith, h⟩

/-- The entrywise quotient of a kernel, likewise. -/
theorem allReal_divf_vec {x y : FVec Ideal s φ} (hx : AllReal x) (hy : ∀ i, ∃ r : ℝ, r ≠ 0 ∧ y i = (r : EReal)) :
    AllReal (divf x y) :=
  fun i => real_div (hx i) (hy i)

/-- The host quotient read at an entry where both operands are known reals. -/
theorem hostDivf_apply_coe {x y : FVec Ideal s φ} (i : s.Idx) {a r : ℝ} (hx : x i = (a : EReal))
    (hy : y i = (r : EReal)) (hr : r ≠ 0) : Host.divf x y i = ((a / r : ℝ) : EReal) := by
  show Ideal.div (x i) (y i) = _
  rw [hx, hy, div_coe_coe a hr]

/-! ### The maximum with the all-ones array: reals that are at least one -/

/-- The broadcast of the one constant has every entry one. -/
theorem ones_apply {s₀ : Shape} {dims : Fin s₀.rank → Fin t.rank} (h : s₀.BroadcastsInDim t dims) (j : t.Idx) :
    broadcastInDim t dims h (constant (F := Ideal) s₀ .f32 0x3F800000#32) j = 1 :=
  ofBits_one_f32

/-- The maximum of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [coe_max, EReal.coe_one]⟩

/-- The entrywise maximum of an all-real array with an array of ones has every entry a real that is at least one. -/
theorem maximumf_ones_ge_one {v ones : FVec Ideal s .f32} (hv : AllReal v) (hones : ∀ i, ones i = 1) :
    ∀ i, ∃ r : ℝ, 1 ≤ r ∧ maximumf v ones i = (r : EReal) := fun i => by
  show ∃ r : ℝ, 1 ≤ r ∧ max (v i) (ones i) = (r : EReal)
  rw [hones i]
  exact real_max_one (hv i)

/-- The same with the all-ones array written as the broadcast of the one constant. -/
theorem maximumf_bcast_one_ge_one {s₀ : Shape} {v : FVec Ideal t .f32} {dims : Fin s₀.rank → Fin t.rank}
    (h : s₀.BroadcastsInDim t dims) (hv : AllReal v) :
    ∀ i, ∃ r : ℝ, 1 ≤ r ∧
      maximumf v (broadcastInDim t dims h (constant (F := Ideal) s₀ .f32 0x3F800000#32)) i = (r : EReal) :=
  maximumf_ones_ge_one hv (ones_apply h)

/-- A re-indexing by a broadcast in named dimensions keeps "every entry a real that is at least one". -/
theorem one_le_broadcastInDim {x : s.Idx → EReal} {dims : Fin s.rank → Fin t.rank} (h : s.BroadcastsInDim t dims)
    (hx : ∀ i, ∃ r : ℝ, 1 ≤ r ∧ x i = (r : EReal)) :
    ∀ j, ∃ r : ℝ, 1 ≤ r ∧ broadcastInDim t dims h x j = (r : EReal) :=
  fun _ => hx _

/-! ### Contractions: an accumulator entry plus a finite sum of products -/

/-- A kernel's matrix product of all-real operands onto an all-real accumulator is all real. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) :=
  fun j => real_add (hacc j) (real_sum _ _ fun k _ => real_mul (hl _) (hr _))

/-- The host's general product of all-real operands is all real. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun j => real_add ⟨0, EReal.coe_zero.symm⟩ (real_sum _ _ fun k _ => real_mul (hl _) (hr _))

end Cert.Lib
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.Bridge.lean ====
/-
  The two hidden rows are one function where every float entry is a real number and every pair index lies in 0..31.
  With w in 0..31 the clip leaves w alone, "w + 32 g = n" picks exactly one of the group's 128 rows, namely row 32 g + w, which is
  row 32 b + w of the whole table, and that is also the row the gather reads (32 b + w is in 0..2047, so neither the shift by
  2048 nor the clamp changes it). The sum over the 128 rows against the selector is then half the sum of the two named projected
  rows; a projected row is a sum over q of products, so by distributivity over the reals half the sum of two projected rows is
  the projection of half the sum of the rows; and the 2048-long contraction splits at 1024 into the object half and the context
  half. Reals are needed for the distributive steps only.
-/
import proofs.«420421_j72438918414396_3_alg».proof.Proof.Spec
import proofs.«420421_j72438918414396_3_alg».proof.Proof.LibFinite
import proofs.«420421_j72438918414396_3_alg».proof.Proof.LibRealSums
import Mathlib.Algebra.BigOperators.Fin
import Mathlib.Tactic.Ring
import Mathlib.Tactic.NormNum

noncomputable section

open Idealize.ShloMosaic Idealize.ShloMosaic.ValueIdx
open scoped BigOperators

namespace Cert.Spec.Bridge

/-! ### Words in 0..31 -/

/-- A word whose signed reading lies in 0..31 has that same unsigned reading. -/
theorem toNat_of_range {w : BitVec 32} (h0 : 0 ≤ w.toInt) (h1 : w.toInt < 32) :
    w.toNat < 32 ∧ w.toInt.toNat = w.toNat := by
  rw [BitVec.toInt_eq_toNat_cond] at h0 h1
  rw [BitVec.toInt_eq_toNat_cond]
  have := w.isLt
  split at h1 <;> omega

/-- Clipping into 0..31 leaves such a word alone. -/
theorem clip_of_range {w : BitVec 32} (h0 : 0 ≤ w.toInt) (h1 : w.toInt < 32) : clip w = w := by
  have hz : (0#32 : BitVec 32).toInt = 0 := by decide
  have h31 : (31#32 : BitVec 32).toInt = 31 := by decide
  have e1 : IntOp.maxsi 0#32 w = w := by
    unfold IntOp.maxsi
    rw [if_neg]
    simp only [BitVec.slt, hz, decide_eq_true_eq]; omega
  unfold clip
  rw [e1]
  unfold IntOp.minsi
  rw [if_neg]
  simp only [BitVec.slt, h31, decide_eq_true_eq]; omega

/-- The word w + 32 g, for w in 0..31 and g below 64, read unsigned. -/
theorem shifted_toNat {w : BitVec 32} (h0 : 0 ≤ w.toInt) (h1 : w.toInt < 32) (g : Nat) (hg : g < 64) :
    (IntOp.addi w (IntOp.muli (BitVec.ofNat 32 g) 32#32)).toNat = 32 * g + w.toInt.toNat := by
  obtain ⟨hw, hwe⟩ := toNat_of_range h0 h1
  unfold IntOp.addi IntOp.muli
  rw [hwe]
  simp only [BitVec.toNat_add, BitVec.toNat_mul, BitVec.toNat_ofNat]
  omega

/-- The 0/1 reading of an equality test of words. -/
theorem eqBit_toInt (x y : BitVec 32) :
    ((IntOp.cmpi .eq x y).setWidth 32).toInt = if x.toNat = y.toNat then 1 else 0 := by
  unfold IntOp.cmpi
  by_cases h : x = y
  · subst h; simp
  · have hb : (x == y) = false := beq_eq_false_iff_ne.mpr h
    have h' : ¬ x.toNat = y.toNat := fun e => h (BitVec.eq_of_toNat_eq e)
    show ((BitVec.ofBool (x == y)).setWidth 32).toInt = _
    rw [hb, if_neg h']
    decide

/-- For a word in 0..31 the hit test at place g of the group is 1 on row 32 g + w and 0 elsewhere. -/
theorem hot_of_range {w : BitVec 32} (h0 : 0 ≤ w.toInt) (h1 : w.toInt < 32) (g : Fin 4) (n : Fin 128) :
    hot w g n = (((if 32 * g.val + w.toInt.toNat = n.val then (1 : ℝ) else 0 : ℝ)) : EReal) := by
  unfold hot
  rw [eqBit_toInt, shifted_toNat h0 h1 g.val (by omega)]
  have hn : (BitVec.ofNat 32 n.val).toNat = n.val := by
    simp only [BitVec.toNat_ofNat]; omega
  rw [hn]
  split <;> simp

end Cert.Spec.Bridge

namespace Cert.Spec.Bridge

/-- The row of the group of four clips that a word in 0..31 of clip b names. -/
def pick (w : BitVec 32) (b : Fin 64) (h : 0 ≤ w.toInt ∧ w.toInt < 32) : Fin 128 :=
  ⟨32 * (b.val % 4) + w.toInt.toNat, by have := (toNat_of_range h.1 h.2).1; have := (toNat_of_range h.1 h.2).2; omega⟩

/-- The hit test of a clipped word in 0..31 is the indicator of the named row. -/
theorem hot_clip {w : BitVec 32} (b : Fin 64) (h : 0 ≤ w.toInt ∧ w.toInt < 32) (n : Fin 128) :
    hot (clip w) (gl b) n = (((if pick w b h = n then (1 : ℝ) else 0 : ℝ)) : EReal) := by
  rw [clip_of_range h.1 h.2, hot_of_range h.1 h.2]
  have e : (32 * (gl b).val + w.toInt.toNat = n.val) ↔ (pick w b h = n) := by
    rw [Fin.ext_iff]; exact Iff.rfl
  simp only [e]

/-- The table row the gather reads for a word in 0..31 of clip b is the named row of b's group. -/
theorem row_of_range {w : BitVec 32} (b : Fin 64) (h : 0 ≤ w.toInt ∧ w.toInt < 32) :
    Cert.LibRows.rowClamp 2048 (by decide) (norm (IntOp.addi w (IntOp.muli (BitVec.ofNat 32 b.val) 32#32)))
      = grow b (pick w b h) := by
  have hb := b.isLt
  obtain ⟨hw, hwe⟩ := toNat_of_range h.1 h.2
  have hv := shifted_toNat h.1 h.2 b.val hb
  generalize IntOp.addi w (IntOp.muli (BitVec.ofNat 32 b.val) 32#32) = v at hv
  have hvi : v.toInt = ((32 * b.val + w.toInt.toNat : ℕ) : ℤ) := by
    rw [BitVec.toInt_eq_toNat_cond, hv, if_pos (by omega)]
  have hz : (0#32 : BitVec 32).toInt = 0 := by decide
  have hn : norm v = v := by
    unfold norm IntOp.cmpi Scalar.select
    have : v.slt 0#32 = false := by
      simp only [BitVec.slt, hz, hvi, decide_eq_false_iff_not]; omega
    show (if BitVec.ofBool (v.slt 0#32) = 1 then _ else _) = _
    rw [this, if_neg (by decide)]
  rw [hn]
  refine Fin.ext ?_
  show min v.toInt.toNat (2048 - 1) = 128 * (b.val / 4) + (32 * (b.val % 4) + w.toInt.toNat)
  rw [hvi]
  omega

end Cert.Spec.Bridge

namespace Cert.Spec.Bridge

/-! ### One half -/

/-- The 16-bit pattern spells the real one half, -/
theorem halfK_real : halfK = (((1 : ℝ) / 2 : ℝ) : EReal) := by
  unfold halfK
  simp [Ideal.ofBits, Ideal.ieee, -EReal.coe_mul]; norm_num

/-- and so does the 32-bit pattern. -/
theorem halfR_real : halfR = (((1 : ℝ) / 2 : ℝ) : EReal) := Cert.Lib.ofBits_half_f32_real

/-! ### Identities of real sums -/

/-- A sum over the group's 128 rows against (hit of n0 + hit of n1) / 2 is half the sum of the two named terms. -/
theorem sum_sel (n0 n1 : Fin 128) (f : Fin 128 → ℝ) :
    ∑ n : Fin 128, (((if n0 = n then (1 : ℝ) else 0) + (if n1 = n then (1 : ℝ) else 0)) * (1 / 2)) * f n
      = 1 / 2 * (f n0 + f n1) := by
  have e : ∀ n : Fin 128, (((if n0 = n then (1 : ℝ) else 0) + (if n1 = n then (1 : ℝ) else 0)) * (1 / 2)) * f n
      = 1 / 2 * (if n0 = n then f n else 0) + 1 / 2 * (if n1 = n then f n else 0) := by
    intro n
    split_ifs <;> ring
  rw [Finset.sum_congr rfl (fun n _ => e n), Finset.sum_add_distrib, ← Finset.mul_sum, ← Finset.mul_sum,
    Finset.sum_ite_eq, Finset.sum_ite_eq, if_pos (Finset.mem_univ _), if_pos (Finset.mem_univ _)]
  ring

/-- Half the sum of two projected rows is the projection of half the sum of the rows. -/
theorem proj_half (x y wt : Fin 1024 → ℝ) :
    1 / 2 * ((∑ q, x q * wt q) + (∑ q, y q * wt q)) = ∑ q, (1 / 2 * (x q + y q)) * wt q := by
  rw [← Finset.sum_add_distrib, Finset.mul_sum]
  exact Finset.sum_congr rfl fun q _ => by ring

/-- A sum over 2048 rows is the sum over the top 1024 plus the sum over the bottom 1024. -/
theorem sum_split {M : Type*} [AddCommMonoid M] (f : Fin 2048 → M) :
    ∑ q : Fin 2048, f q = (∑ q : Fin 1024, f (top q)) + ∑ q : Fin 1024, f (bot q) :=
  Fin.sum_univ_add (a := 1024) (b := 1024) f

/-- The whole identity over the reals: selector sum of projected rows plus (context projection plus bias) is
    (projection of the half-sum row plus context projection) plus bias. -/
theorem real_core (n0 n1 : Fin 128) (g : Fin 128 → Fin 1024 → ℝ) (wt : Fin 1024 → ℝ) (cc β : ℝ) :
    (∑ n : Fin 128, (((if n0 = n then (1 : ℝ) else 0) + (if n1 = n then (1 : ℝ) else 0)) * (1 / 2)) * ∑ q, g n q * wt q)
        + (cc + β)
      = ((∑ q, (1 / 2 * (g n0 q + g n1 q)) * wt q) + cc) + β := by
  rw [sum_sel n0 n1 (fun n => ∑ q, g n q * wt q), proj_half, add_assoc]

end Cert.Spec.Bridge

namespace Cert.Spec.Bridge

/-! ### The two hidden rows over real arrays -/

/-- A projected object row of real arrays is the coercion of the real sum. -/
theorem projK_coe (o w1 : T2048x1024.Idx → ℝ) (m : Fin 2048) (k : Fin 1024) :
    projK (fun i => (o i : EReal)) (fun i => (w1 i : EReal)) m k
      = ((∑ q : Fin 1024, o (ix2 m q) * w1 (ix2 (top q) k) : ℝ) : EReal) := by
  unfold projK
  rw [Cert.Lib.coe_finset_sum]
  exact Finset.sum_congr rfl fun q _ => (EReal.coe_mul _ _).symm

/-- A projected context row of real arrays, with the bias, is the coercion of the real expression. -/
theorem ctxK_coe (c : T64x1024.Idx → ℝ) (w1 : T2048x1024.Idx → ℝ) (β : T1024.Idx → ℝ) (b : Fin 64) (k : Fin 1024) :
    ctxK (fun i => (c i : EReal)) (fun i => (w1 i : EReal)) (fun i => (β i : EReal)) b k
      = (((∑ q : Fin 1024, c (ix2 b q) * w1 (ix2 (bot q) k)) + β (ix1 k) : ℝ) : EReal) := by
  unfold ctxK
  rw [EReal.coe_add, Cert.Lib.coe_finset_sum]
  exact congrArg₂ (fun x y : EReal => x + y) (Finset.sum_congr rfl fun q _ => (EReal.coe_mul _ _).symm) rfl

/-- The selector of clipped words in 0..31 is (indicator of the first named row + indicator of the second) / 2. -/
theorem selRaw_coe (P : T64x256x2.Idx → BitVec 32) (b : Fin 64) (r : Fin 256)
    (h0 : 0 ≤ (P (ix3 b r 0)).toInt ∧ (P (ix3 b r 0)).toInt < 32)
    (h1 : 0 ≤ (P (ix3 b r 1)).toInt ∧ (P (ix3 b r 1)).toInt < 32) (n : Fin 128) :
    selRaw (fun i => clip (P i)) b r n
      = (((((if pick (P (ix3 b r 0)) b h0 = n then (1 : ℝ) else 0)
            + (if pick (P (ix3 b r 1)) b h1 = n then (1 : ℝ) else 0)) * (1 / 2) : ℝ)) : EReal) := by
  unfold selRaw
  show (hot (clip (P (ix3 b r 0))) (gl b) n + hot (clip (P (ix3 b r 1))) (gl b) n) * halfK = _
  rw [hot_clip b h0, hot_clip b h1, halfK_real, ← EReal.coe_add, ← EReal.coe_mul]

/-- The projections-first hidden row over real arrays, as the coercion of a real expression. -/
theorem HK_coe (o : T2048x1024.Idx → ℝ) (c : T64x1024.Idx → ℝ) (P : T64x256x2.Idx → BitVec 32)
    (w1 : T2048x1024.Idx → ℝ) (β : T1024.Idx → ℝ) (b : Fin 64) (r : Fin 256) (k : Fin 1024)
    (h0 : 0 ≤ (P (ix3 b r 0)).toInt ∧ (P (ix3 b r 0)).toInt < 32)
    (h1 : 0 ≤ (P (ix3 b r 1)).toInt ∧ (P (ix3 b r 1)).toInt < 32) :
    HK (fun i => (o i : EReal)) (fun i => (c i : EReal)) P (fun i => (w1 i : EReal)) (fun i => (β i : EReal)) b r k
      = (((∑ n : Fin 128, (((if pick (P (ix3 b r 0)) b h0 = n then (1 : ℝ) else 0)
              + (if pick (P (ix3 b r 1)) b h1 = n then (1 : ℝ) else 0)) * (1 / 2))
            * ∑ q : Fin 1024, o (ix2 (grow b n) q) * w1 (ix2 (top q) k))
          + ((∑ q : Fin 1024, c (ix2 b q) * w1 (ix2 (bot q) k)) + β (ix1 k)) : ℝ) : EReal) := by
  unfold HK
  rw [ctxK_coe]
  refine Eq.trans ?_ (EReal.coe_add _ _).symm
  refine congrArg₂ (fun x y : EReal => x + y) ?_ rfl
  refine Eq.trans ?_ (Cert.Lib.coe_finset_sum _ _).symm
  refine Finset.sum_congr rfl fun n _ => ?_
  rw [selRaw_coe P b r h0 h1 n, projK_coe]
  exact (EReal.coe_mul _ _).symm

/-- The object half of the input row over real arrays: half the sum of the two named rows of the group. -/
theorem xR_top (o : T2048x1024.Idx → ℝ) (c : T64x1024.Idx → ℝ) (P : T64x256x2.Idx → BitVec 32)
    (b : Fin 64) (r : Fin 256)
    (h0 : 0 ≤ (P (ix3 b r 0)).toInt ∧ (P (ix3 b r 0)).toInt < 32)
    (h1 : 0 ≤ (P (ix3 b r 1)).toInt ∧ (P (ix3 b r 1)).toInt < 32) (q : Fin 1024) :
    xR (fun i => (o i : EReal)) (fun i => (c i : EReal)) P b r (top q)
      = ((1 / 2 * (o (ix2 (grow b (pick (P (ix3 b r 0)) b h0)) q)
            + o (ix2 (grow b (pick (P (ix3 b r 1)) b h1)) q)) : ℝ) : EReal) := by
  have hq : (top q).val < 1024 := q.isLt
  have e0 : rowR P b r 0 = grow b (pick (P (ix3 b r 0)) b h0) := row_of_range b h0
  have e1 : rowR P b r 1 = grow b (pick (P (ix3 b r 1)) b h1) := row_of_range b h1
  unfold xR
  rw [dif_pos hq, e0, e1, halfR_real, EReal.coe_mul, EReal.coe_add]
  rfl

/-- The context half of the input row over real arrays: the context row of the clip. -/
theorem xR_bot (o : T2048x1024.Idx → ℝ) (c : T64x1024.Idx → ℝ) (P : T64x256x2.Idx → BitVec 32)
    (b : Fin 64) (r : Fin 256) (q : Fin 1024) :
    xR (fun i => (o i : EReal)) (fun i => (c i : EReal)) P b r (bot q) = ((c (ix2 b q) : ℝ) : EReal) := by
  have hq : ¬ (bot q).val < 1024 := by show ¬ (1024 + q.val < 1024); omega
  have e : ∀ (hlt : (bot q).val - 1024 < 1024), (⟨(bot q).val - 1024, hlt⟩ : Fin 1024) = q :=
    fun _ => Fin.ext (by show 1024 + q.val - 1024 = q.val; omega)
  unfold xR
  rw [dif_neg hq, e]

/-- The input-row-first hidden row over real arrays, as the coercion of a real expression. -/
theorem HR_coe (o : T2048x1024.Idx → ℝ) (c : T64x1024.Idx → ℝ) (P : T64x256x2.Idx → BitVec 32)
    (w1 : T2048x1024.Idx → ℝ) (β : T1024.Idx → ℝ) (b : Fin 64) (r : Fin 256) (k : Fin 1024)
    (h0 : 0 ≤ (P (ix3 b r 0)).toInt ∧ (P (ix3 b r 0)).toInt < 32)
    (h1 : 0 ≤ (P (ix3 b r 1)).toInt ∧ (P (ix3 b r 1)).toInt < 32) :
    HR (fun i => (o i : EReal)) (fun i => (c i : EReal)) P (fun i => (w1 i : EReal)) (fun i => (β i : EReal)) b r k
      = ((((∑ q : Fin 1024, (1 / 2 * (o (ix2 (grow b (pick (P (ix3 b r 0)) b h0)) q)
                + o (ix2 (grow b (pick (P (ix3 b r 1)) b h1)) q))) * w1 (ix2 (top q) k))
            + ∑ q : Fin 1024, c (ix2 b q) * w1 (ix2 (bot q) k)) + β (ix1 k) : ℝ) : EReal) := by
  unfold HR
  rw [sum_split]
  refine Eq.trans ?_ (EReal.coe_add _ _).symm
  refine congrArg₂ (fun x y : EReal => x + y) ?_ rfl
  refine Eq.trans ?_ (EReal.coe_add _ _).symm
  refine congrArg₂ (fun x y : EReal => x + y) ?_ ?_
  · refine Eq.trans ?_ (Cert.Lib.coe_finset_sum _ _).symm
    refine Finset.sum_congr rfl fun q _ => ?_
    rw [xR_top o c P b r h0 h1 q]
    exact (EReal.coe_mul _ _).symm
  · refine Eq.trans ?_ (Cert.Lib.coe_finset_sum _ _).symm
    refine Finset.sum_congr rfl fun q _ => ?_
    rw [xR_bot o c P b r q]
    exact (EReal.coe_mul _ _).symm

end Cert.Spec.Bridge

namespace Cert.Spec

/-- The two hidden rows agree when every float entry is a real and every pair index lies in 0..31. -/
theorem HK_eq_HR (O : T2048x1024.Idx → EReal) (C : T64x1024.Idx → EReal) (P : T64x256x2.Idx → BitVec 32)
    (W1 : T2048x1024.Idx → EReal) (b1 : T1024.Idx → EReal)
    (hO : Cert.Lib.AllReal O) (hC : Cert.Lib.AllReal C) (hW1 : Cert.Lib.AllReal W1) (hb1 : Cert.Lib.AllReal b1)
    (hP : ∀ i, 0 ≤ (P i).toInt ∧ (P i).toInt < 32) (b : Fin 64) (r : Fin 256) (k : Fin 1024) :
    HK O C P W1 b1 b r k = HR O C P W1 b1 b r k := by
  obtain ⟨o, rfl⟩ := hO.exists_real
  obtain ⟨c, rfl⟩ := hC.exists_real
  obtain ⟨w1, rfl⟩ := hW1.exists_real
  obtain ⟨β, rfl⟩ := hb1.exists_real
  rw [Bridge.HK_coe o c P w1 β b r k (hP _) (hP _), Bridge.HR_coe o c P w1 β b r k (hP _) (hP _)]
  exact congrArg Real.toEReal
    (Bridge.real_core _ _ (fun n q => o (ix2 (grow b n) q)) (fun q => w1 (ix2 (top q) k)) _ _)

end Cert.Spec

end
-- ==== Proof.PreFacts.lean ====
/-
  What the precondition says of the seven arrays: each float array's entries are real numbers (|x| < +inf on the extended
  reals leaves exactly the reals), and every pair index, read signed, lies in 0..31.
-/
import proofs.«420421_j72438918414396_3_alg».proof.Proof.Gen.Pre_finite_inputs
import proofs.«420421_j72438918414396_3_alg».proof.Proof.Spec
import proofs.«420421_j72438918414396_3_alg».proof.Proof.LibFinite
import Idealize.ShloMosaic.Lib.ReduceAll
import Idealize.ShloMosaic.Lib.StableHlo.Predicate

noncomputable section

open Idealize.ShloMosaic Idealize.ShloMosaic.ValueIdx Idealize.SL.Sem Idealize.ShloMosaic.TcCoe
open scoped BigOperators

namespace Cert.PreFacts

/-- The scalar shape has a single index. -/
instance subsingleton_scalarIdx : Subsingleton Cert.Pre_finite_inputs.S_.Idx :=
  ⟨fun a b => funext fun d => d.elim0⟩

/-- The f32 pattern with all exponent bits set and no fraction bit denotes plus infinity. -/
theorem ofBits_inf_f32 : Ideal.ofBits .f32 0x7F800000#32 = (⊤ : EReal) := by
  simp [Ideal.ofBits, Ideal.ieee]

/-- An extended real whose absolute value max x (-x) lies strictly below plus infinity is a real: at either infinity
    the absolute value is plus infinity itself. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- One float conjunct of the precondition: if the conjunction over every entry of |x| < +inf is one, every entry of x is real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ValueIdx.ix0 = 1#1) :
    Cert.Lib.AllReal x := fun i =>
  real_of_abs_lt_inf (x i) (Host.reduce_andi_all _ _ hr hu ValueIdx.ix0 h i)

/-- The integer conjunct: if the conjunction over every entry of (w ≥ 0 and w < 32, signed) is one, every word read signed
    lies in 0..31. -/
theorem range_of_all {s : Shape} {axes : List (Fin s.rank)} (x : IVec s 32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (andi (cmpi .sge x (broadcastInDim s ![] hb (constantI Cert.Pre_finite_inputs.S_ 32 0#32)))
          (cmpi .slt x (broadcastInDim s ![] hb (constantI Cert.Pre_finite_inputs.S_ 32 32#32))))
        (constantI Cert.Pre_finite_inputs.S_ 1 1#1) hr hu ValueIdx.ix0 = 1#1) :
    ∀ i, 0 ≤ (x i).toInt ∧ (x i).toInt < 32 := fun i => by
  obtain ⟨e1, e2⟩ := IntOp.andi_eq_one.1 (Host.reduce_andi_all _ _ hr hu ValueIdx.ix0 h i)
  have g1 : (0#32 : BitVec 32).toInt ≤ (x i).toInt := IntOp.cmpi_sge.1 e1
  have g2 : (x i).toInt < (32#32 : BitVec 32).toInt := IntOp.cmpi_slt.1 e2
  have z0 : (0#32 : BitVec 32).toInt = 0 := by decide
  have z32 : (32#32 : BitVec 32).toInt = 32 := by decide
  exact ⟨z0 ▸ g1, z32 ▸ g2⟩

/-- The precondition, all ones, gives real entries and pair indices in 0..31. -/
theorem of_pre [Cert.Pre_finite_inputs.Facts]
    (a0 : (⟨Cert.Pre_finite_inputs.S2048x1024, .f32⟩ : BufTy).Contents (Elt Ideal)) (a1 : (⟨Cert.Pre_finite_inputs.S64x1024, .f32⟩ : BufTy).Contents (Elt Ideal))
    (a2 : (⟨Cert.Pre_finite_inputs.S64x256x2, .i32⟩ : BufTy).Contents (Elt Ideal)) (a3 : (⟨Cert.Pre_finite_inputs.S2048x1024, .f32⟩ : BufTy).Contents (Elt Ideal))
    (a4 : (⟨Cert.Pre_finite_inputs.S1024, .f32⟩ : BufTy).Contents (Elt Ideal)) (a5 : (⟨Cert.Pre_finite_inputs.S1024x512, .f32⟩ : BufTy).Contents (Elt Ideal))
    (a6 : (⟨Cert.Pre_finite_inputs.S512, .f32⟩ : BufTy).Contents (Elt Ideal))
    (h : Cert.Pre_finite_inputs.fn (F := Ideal) a0 a1 a2 a3 a4 a5 a6 = (fun _ => 1#1)) :
    Cert.Lib.AllReal (s := Cert.Spec.T2048x1024) a0 ∧ Cert.Lib.AllReal (s := Cert.Spec.T64x1024) a1 ∧ Cert.Lib.AllReal (s := Cert.Spec.T2048x1024) a3
      ∧ Cert.Lib.AllReal (s := Cert.Spec.T1024) a4 ∧ Cert.Lib.AllReal (s := Cert.Spec.T1024x512) a5 ∧ Cert.Lib.AllReal (s := Cert.Spec.T512) a6
      ∧ ∀ i, 0 ≤ (a2 i).toInt ∧ (a2 i).toInt < 32 := by
  have h0 := congrFun h ValueIdx.ix0
  dsimp only [Cert.Pre_finite_inputs.fn, Cert.Pre_finite_inputs.fn_part1, Cert.Pre_finite_inputs.fn_part2] at h0
  obtain ⟨h28, h34⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all a0 _ _ _ h3, allReal_of_all a1 _ _ _ h7, allReal_of_all a3 _ _ _ h12,
    allReal_of_all a4 _ _ _ h17, allReal_of_all a5 _ _ _ h22, allReal_of_all a6 _ _ _ h27,
    range_of_all a2 _ _ _ h34⟩

end Cert.PreFacts

end
-- ==== Proof.lean ====
/-
  The certificate's claims assembled.

  The three runs: the word-level kernel's and the idealized kernel's from the frames of their two stages and the host
  operations between them; the reference's from its run as a list of host operations. The idealization rewrote nothing, so
  nothing is owed for it. For the equivalence both results are read entry by entry: the kernel's result at (i, j) and the
  reference's are the same last layer applied to two hidden rows (projections first; input row first), and the two hidden rows
  are one function of the arguments where every float entry is a real and every pair index lies in 0..31, which is what the
  precondition says.
-/
import proofs.«420421_j72438918414396_3_alg».proof.Defs
import proofs.«420421_j72438918414396_3_alg».proof.Proof.Gen.Kernel
import proofs.«420421_j72438918414396_3_alg».proof.Proof.Gen.Kernel.Skeleton
import proofs.«420421_j72438918414396_3_alg».proof.Proof.Gen.Kernel.Launch
import proofs.«420421_j72438918414396_3_alg».proof.Proof.Gen.Kernel.Points
import proofs.«420421_j72438918414396_3_alg».proof.Proof.Gen.Kernel.Frame
import proofs.«420421_j72438918414396_3_alg».proof.Proof.Gen.KernelIdeal
import proofs.«420421_j72438918414396_3_alg».proof.Proof.Gen.KernelIdeal.Skeleton
import proofs.«420421_j72438918414396_3_alg».proof.Proof.Gen.KernelIdeal.Launch
import proofs.«420421_j72438918414396_3_alg».proof.Proof.Gen.KernelIdeal.Points
import proofs.«420421_j72438918414396_3_alg».proof.Proof.Gen.KernelIdeal.Frame
import proofs.«420421_j72438918414396_3_alg».proof.Proof.Gen.ReferenceIdeal
import proofs.«420421_j72438918414396_3_alg».proof.Proof.Gen.Pre_finite_inputs
import proofs.«420421_j72438918414396_3_alg».proof.Proof.Gen.ReferenceIdeal.Run
import proofs.«420421_j72438918414396_3_alg».proof.Proof.Gen.ReferenceIdeal.Read
import proofs.«420421_j72438918414396_3_alg».proof.Proof.KernelRun
import proofs.«420421_j72438918414396_3_alg».proof.Proof.KernelValue
import proofs.«420421_j72438918414396_3_alg».proof.Proof.RefValue
import proofs.«420421_j72438918414396_3_alg».proof.Proof.Bridge
import proofs.«420421_j72438918414396_3_alg».proof.Proof.PreFacts
import Idealize.ShloMosaic.Adequacy
import Idealize.ShloMosaic.Init

noncomputable section

namespace Cert.Proof

open Idealize.ShloMosaic Idealize.ShloMosaic.ValueIdx Idealize.SL.Sem

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two last layers agree entry by entry once the hidden rows do. -/
theorem tail_congr (H H' : Fin 64 → Fin 256 → Fin 1024 → EReal) (W2 : Cert.Spec.T1024x512.Idx → EReal) (b2 : Cert.Spec.T512.Idx → EReal)
    (h : ∀ b r k, H b r k = H' b r k) (i : Fin 16384) (j : Fin 512) :
    Cert.Spec.tailE H W2 b2 i j = Cert.Spec.tailE H' W2 b2 i j := by
  unfold Cert.Spec.tailE
  rw [Finset.sum_congr rfl (fun k _ => by rw [h])]

/-- Under the precondition, from memories agreeing on the arguments, both idealized programs end with the same result:
    entry (i, j) of either is the last layer over a hidden row, and the hidden rows agree on real entries with pair indices
    in 0..31. -/
theorem algebraic : Cert.algebraic_KernelIdeal_ReferenceIdeal := by
  intro m ρ m' ρ' hpre hagree
  refine ⟨fun c => Cert.KernelIdeal.Gen.W7 m ρ c (Proc.devRef .tc Cert.KernelIdeal.main_v13), Cert.KernelIdeal.Gen.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  obtain ⟨r0, r1, r3, r4, _, _, rP⟩ := Cert.PreFacts.of_pre _ _ _ _ _ _ _ (hpre c)
  rw [Cert.ReferenceIdeal.Read.val_main_v39_eq, h0, h1, h2, h3, h4, h5, h6]
  funext idx
  obtain ⟨i, j, rfl⟩ : ∃ (i : Fin 16384) (j : Fin 512), idx = ix2 i j := ⟨idx 0, idx 1, eq_ix2 idx⟩
  rw [Cert.ReferenceIdeal.RefVal.result_apply]
  refine Eq.trans ?_ (Cert.KernelIdeal.Val.result_apply m ρ c i j).symm
  exact tail_congr _ _ _ _ (fun b r k => (Cert.Spec.HK_eq_HR _ _ _ _ _ r0 r1 r3 r4 rP b r k).symm) i j

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
